-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x6 : Shape := ⟨2, ![4000000, 6]⟩
abbrev S_ : Shape := ⟨0, ![]⟩

class Facts : Prop where
  bcast_S_S4000000x6 : S_.BroadcastsInDim S4000000x6 (![] : Fin 0 → Fin S4000000x6.rank)
  reducesTo_S4000000x6_S_d0_1 : S4000000x6.ReducesTo [0, 1] S_
  h_S_ : 0 < S_.numel

variable [Facts]

def fn {F : FTy → Type} [FloatOps F] (main_arg0 : FVec F S4000000x6 .f32) : IVec S_ 1 :=
  let main_v0 : FVec F S4000000x6 .f32 := Host.absf main_arg0
  let main_cst : FVec F S_ .f32 := constant S_ .f32 0x7F800000#32
  let main_v1 : FVec F S4000000x6 .f32 := broadcastInDim S4000000x6 ![] bcast_S_S4000000x6 main_cst
  let main_v2 : IVec S4000000x6 1 := cmpf .olt main_v0 main_v1
  let main_c : IVec S_ 1 := constantI S_ 1 1#1
  let main_v3 : IVec S_ 1 := (fun x v => Host.reduce IntOp.andi x v reducesTo_S4000000x6_S_d0_1 h_S_) main_v2 main_c
  main_v3
-- ==== Kernel.lean ====
abbrev S4000000x6 : Shape := ⟨2, ![4000000, 6]⟩
abbrev S4000000x16 : Shape := ⟨2, ![4000000, 16]⟩
abbrev S3200x6 : Shape := ⟨2, ![3200, 6]⟩
abbrev S3200x16 : Shape := ⟨2, ![3200, 16]⟩
abbrev S3200x1 : Shape := ⟨2, ![3200, 1]⟩
abbrev S4000000x4x4 : Shape := ⟨3, ![4000000, 4, 4]⟩

abbrev nBuf : Space → Nat
  | .hbm => 3
  | .vmem => 4
  | .smem => 0
  | _ => 0

abbrev bufTy : (tb : Table) → Fin (tcTables nBuf tb) → BufTy
  | .hbm, ⟨0, _⟩ => ⟨S4000000x6, .f32⟩
  | .hbm, ⟨1, _⟩ => ⟨S4000000x16, .f32⟩
  | .hbm, ⟨2, _⟩ => ⟨S4000000x4x4, .f32⟩
  | .local _ .vmem, ⟨0, _⟩ => ⟨S3200x6, .f32⟩
  | .local _ .vmem, ⟨1, _⟩ => ⟨S3200x6, .f32⟩
  | .local _ .vmem, ⟨2, _⟩ => ⟨S3200x16, .f32⟩
  | .local _ .vmem, ⟨3, _⟩ => ⟨S3200x16, .f32⟩
  | _, _ => ⟨S4000000x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![1250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S3200x6_S3200x6_0_0 : ∀ a, (![0, 0] : Fin 2 → Nat) a + S3200x6.size a ≤ S3200x6.size a
  h_S3200x6 : 0 < S3200x6.numel
  slices_S3200x6_o0_0_S3200x1 : S3200x6.Slices ![0, 0] S3200x1
  slices_S3200x6_o0_1_S3200x1 : S3200x6.Slices ![0, 1] S3200x1
  slices_S3200x6_o0_2_S3200x1 : S3200x6.Slices ![0, 2] S3200x1
  slices_S3200x6_o0_3_S3200x1 : S3200x6.Slices ![0, 3] S3200x1
  slices_S3200x6_o0_4_S3200x1 : S3200x6.Slices ![0, 4] S3200x1
  slices_S3200x6_o0_5_S3200x1 : S3200x6.Slices ![0, 5] S3200x1
  concatenates_S3200x1_S3200x1_S3200x1_S3200x1_S3200x1_S3200x1_S3200x1_S3200x1_S3200x1_S3200x1_S3200x1_S3200x1_S3200x1_S3200x1_S3200x1_S3200x1_S3200x16_d1 : Shape.Concatenates [S3200x1, S3200x1, S3200x1, S3200x1, S3200x1, S3200x1, S3200x1, S3200x1, S3200x1, S3200x1, S3200x1, S3200x1, S3200x1, S3200x1, S3200x1, S3200x1] S3200x16 1
  inb_S3200x16_S3200x16_0_0 : ∀ a, (![0, 0] : Fin 2 → Nat) a + S3200x16.size a ≤ S3200x16.size a
  h_S3200x16 : 0 < S3200x16.numel
  shapeCasts_S4000000x16_S4000000x4x4 : S4000000x16.ShapeCasts S4000000x4x4
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x6.size a ≤ S4000000x6.size a
  hwx0_0 : ∀ i : grid0.Coords, EltTy.bits .f32 = 32 ∨ (Rect.block (s := S4000000x6) S3200x6.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x16.size a ≤ S4000000x16.size a
  hwx0_1 : ∀ i : grid0.Coords, EltTy.bits .f32 = 32 ∨ (Rect.block (s := S4000000x16) S3200x16.size (cc0_transform_1 i) (hinb0_1 i)).WholeWords (EltTy.packing .f32)

variable [Facts₀]

abbrev win0_0 : Pipeline.Window sig grid0 :=
  Pipeline.Window.ofSpec (Memref.whole main_arg0) S3200x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S3200x16.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4000000x6 : Shape := ⟨2, ![4000000, 6]⟩
abbrev S1x1x4 : Shape := ⟨3, ![1, 1, 4]⟩
abbrev S4000000x3 : Shape := ⟨2, ![4000000, 3]⟩
abbrev S4000000x1 : Shape := ⟨2, ![4000000, 1]⟩
abbrev S4000000 : Shape := ⟨1, ![4000000]⟩
abbrev S_ : Shape := ⟨0, ![]⟩
abbrev S4000000x1x3 : Shape := ⟨3, ![4000000, 1, 3]⟩
abbrev S4000000x3x3 : Shape := ⟨3, ![4000000, 3, 3]⟩
abbrev S3x3 : Shape := ⟨2, ![3, 3]⟩
abbrev S4000000x1x1 : Shape := ⟨3, ![4000000, 1, 1]⟩
abbrev S1x3x3 : Shape := ⟨3, ![1, 3, 3]⟩
abbrev S4000000x3x1 : Shape := ⟨3, ![4000000, 3, 1]⟩
abbrev S4000000x3x4 : Shape := ⟨3, ![4000000, 3, 4]⟩
abbrev S4000000x1x4 : Shape := ⟨3, ![4000000, 1, 4]⟩
abbrev S4000000x4x4 : Shape := ⟨3, ![4000000, 4, 4]⟩

abbrev nBuf : Space → Nat
  | .hbm => 85
  | .vmem => 0
  | .smem => 0
  | _ => 0

abbrev bufTy : (tb : Table) → Fin (tcTables nBuf tb) → BufTy
  | .hbm, ⟨0, _⟩ => ⟨S4000000x6, .f32⟩
  | .hbm, ⟨1, _⟩ => ⟨S1x1x4, .f32⟩
  | .hbm, ⟨2, _⟩ => ⟨S4000000x3, .f32⟩
  | .hbm, ⟨3, _⟩ => ⟨S4000000x3, .f32⟩
  | .hbm, ⟨4, _⟩ => ⟨S4000000x1, .f32⟩
  | .hbm, ⟨5, _⟩ => ⟨S4000000, .f32⟩
  | .hbm, ⟨6, _⟩ => ⟨S4000000x1, .f32⟩
  | .hbm, ⟨7, _⟩ => ⟨S4000000, .f32⟩
  | .hbm, ⟨8, _⟩ => ⟨S4000000x1, .f32⟩
  | .hbm, ⟨9, _⟩ => ⟨S4000000, .f32⟩
  | .hbm, ⟨10, _⟩ => ⟨S_, .f32⟩
  | .hbm, ⟨11, _⟩ => ⟨S4000000, .f32⟩
  | .hbm, ⟨12, _⟩ => ⟨S4000000, .f32⟩
  | .hbm, ⟨13, _⟩ => ⟨S4000000x1, .f32⟩
  | .hbm, ⟨14, _⟩ => ⟨S4000000x1, .f32⟩
  | .hbm, ⟨15, _⟩ => ⟨S4000000x1, .f32⟩
  | .hbm, ⟨16, _⟩ => ⟨S4000000x3, .f32⟩
  | .hbm, ⟨17, _⟩ => ⟨S4000000, .f32⟩
  | .hbm, ⟨18, _⟩ => ⟨S4000000x1, .f32⟩
  | .hbm, ⟨19, _⟩ => ⟨S4000000x1, .f32⟩
  | .hbm, ⟨20, _⟩ => ⟨S4000000x1, .f32⟩
  | .hbm, ⟨21, _⟩ => ⟨S4000000x3, .f32⟩
  | .hbm, ⟨22, _⟩ => ⟨S4000000, .f32⟩
  | .hbm, ⟨23, _⟩ => ⟨S4000000x1, .f32⟩
  | .hbm, ⟨24, _⟩ => ⟨S4000000x1, .f32⟩
  | .hbm, ⟨25, _⟩ => ⟨S4000000x1, .f32⟩
  | .hbm, ⟨26, _⟩ => ⟨S4000000x3, .f32⟩
  | .hbm, ⟨27, _⟩ => ⟨S4000000x1x3, .f32⟩
  | .hbm, ⟨28, _⟩ => ⟨S4000000x1x3, .f32⟩
  | .hbm, ⟨29, _⟩ => ⟨S4000000x1x3, .f32⟩
  | .hbm, ⟨30, _⟩ => ⟨S4000000x3x3, .f32⟩
  | .hbm, ⟨31, _⟩ => ⟨S4000000x3, .f32⟩
  | .hbm, ⟨32, _⟩ => ⟨S_, .f32⟩
  | .hbm, ⟨33, _⟩ => ⟨S4000000, .f32⟩
  | .hbm, ⟨34, _⟩ => ⟨S_, .f32⟩
  | .hbm, ⟨35, _⟩ => ⟨S4000000, .f32⟩
  | .hbm, ⟨36, _⟩ => ⟨S4000000, .i1⟩
  | .hbm, ⟨37, _⟩ => ⟨S_, .f32⟩
  | .hbm, ⟨38, _⟩ => ⟨S_, .f32⟩
  | .hbm, ⟨39, _⟩ => ⟨S4000000, .f32⟩
  | .hbm, ⟨40, _⟩ => ⟨S4000000, .f32⟩
  | .hbm, ⟨41, _⟩ => ⟨S4000000, .f32⟩
  | .hbm, ⟨42, _⟩ => ⟨S_, .f32⟩
  | .hbm, ⟨43, _⟩ => ⟨S4000000, .f32⟩
  | .hbm, ⟨44, _⟩ => ⟨S4000000, .f32⟩
  | .hbm, ⟨45, _⟩ => ⟨S_, .f32⟩
  | .hbm, ⟨46, _⟩ => ⟨S4000000, .f32⟩
  | .hbm, ⟨47, _⟩ => ⟨S4000000, .f32⟩
  | .hbm, ⟨48, _⟩ => ⟨S4000000, .f32⟩
  | .hbm, ⟨49, _⟩ => ⟨S4000000, .f32⟩
  | .hbm, ⟨50, _⟩ => ⟨S4000000, .f32⟩
  | .hbm, ⟨51, _⟩ => ⟨S_, .f32⟩
  | .hbm, ⟨52, _⟩ => ⟨S4000000, .f32⟩
  | .hbm, ⟨53, _⟩ => ⟨S4000000, .f32⟩
  | .hbm, ⟨54, _⟩ => ⟨S_, .f32⟩
  | .hbm, ⟨55, _⟩ => ⟨S4000000, .f32⟩
  | .hbm, ⟨56, _⟩ => ⟨S4000000, .f32⟩
  | .hbm, ⟨57, _⟩ => ⟨S4000000, .f32⟩
  | .hbm, ⟨58, _⟩ => ⟨S_, .f32⟩
  | .hbm, ⟨59, _⟩ => ⟨S4000000, .f32⟩
  | .hbm, ⟨60, _⟩ => ⟨S4000000, .f32⟩
  | .hbm, ⟨61, _⟩ => ⟨S4000000, .f32⟩
  | .hbm, ⟨62, _⟩ => ⟨S4000000, .f32⟩
  | .hbm, ⟨63, _⟩ => ⟨S4000000x3x3, .f32⟩
  | .hbm, ⟨64, _⟩ => ⟨S3x3, .i32⟩
  | .hbm, ⟨65, _⟩ => ⟨S3x3, .i32⟩
  | .hbm, ⟨66, _⟩ => ⟨S_, .i32⟩
  | .hbm, ⟨67, _⟩ => ⟨S3x3, .i32⟩
  | .hbm, ⟨68, _⟩ => ⟨S3x3, .i32⟩
  | .hbm, ⟨69, _⟩ => ⟨S3x3, .i1⟩
  | .hbm, ⟨70, _⟩ => ⟨S3x3, .f32⟩
  | .hbm, ⟨71, _⟩ => ⟨S4000000x1x1, .f32⟩
  | .hbm, ⟨72, _⟩ => ⟨S4000000x3x3, .f32⟩
  | .hbm, ⟨73, _⟩ => ⟨S4000000x3x3, .f32⟩
  | .hbm, ⟨74, _⟩ => ⟨S1x3x3, .f32⟩
  | .hbm, ⟨75, _⟩ => ⟨S4000000x3x3, .f32⟩
  | .hbm, ⟨76, _⟩ => ⟨S4000000x3x3, .f32⟩
  | .hbm, ⟨77, _⟩ => ⟨S4000000x1x1, .f32⟩
  | .hbm, ⟨78, _⟩ => ⟨S4000000x3x3, .f32⟩
  | .hbm, ⟨79, _⟩ => ⟨S4000000x3x3, .f32⟩
  | .hbm, ⟨80, _⟩ => ⟨S4000000x3x3, .f32⟩
  | .hbm, ⟨81, _⟩ => ⟨S4000000x3x1, .f32⟩
  | .hbm, ⟨82, _⟩ => ⟨S4000000x3x4, .f32⟩
  | .hbm, ⟨83, _⟩ => ⟨S4000000x1x4, .f32⟩
  | .hbm, ⟨84, _⟩ => ⟨S4000000x4x4, .f32⟩
  | _, _ => ⟨S4000000x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_cst_1 : Ref sig .tc := ⟨.hbm, 32, rfl⟩
abbrev main_v29 : Ref sig .tc := ⟨.hbm, 33, rfl⟩
abbrev main_cst_2 : Ref sig .tc := ⟨.hbm, 34, rfl⟩
abbrev main_v30 : Ref sig .tc := ⟨.hbm, 35, rfl⟩
abbrev main_v31 : Ref sig .tc := ⟨.hbm, 36, rfl⟩
abbrev main_cst_3 : Ref sig .tc := ⟨.hbm, 37, rfl⟩
abbrev main_call0_v0 : Ref sig .tc := ⟨.hbm, 38, rfl⟩
abbrev main_call0_v1 : Ref sig .tc := ⟨.hbm, 39, rfl⟩
abbrev main_v32 : Ref sig .tc := ⟨.hbm, 40, rfl⟩
abbrev main_v33 : Ref sig .tc := ⟨.hbm, 41, rfl⟩
abbrev main_cst_4 : Ref sig .tc := ⟨.hbm, 42, rfl⟩
abbrev main_v34 : Ref sig .tc := ⟨.hbm, 43, rfl⟩
abbrev main_v35 : Ref sig .tc := ⟨.hbm, 44, rfl⟩
abbrev main_cst_5 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_cst_6 : Ref sig .tc := ⟨.hbm, 51, rfl⟩
abbrev main_v41 : Ref sig .tc := ⟨.hbm, 52, rfl⟩
abbrev main_v42 : Ref sig .tc := ⟨.hbm, 53, rfl⟩
abbrev main_cst_7 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_8 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_c : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩

abbrev nD : Nat := 1
abbrev τ : Topo := Topo.v7x

variable {F : FTy → Type} [FloatOps F]

class Facts₀ : Prop where
  slices_S4000000x6_S4000000x3_0_0 : S4000000x6.Slices ![0, 0] S4000000x3
  slices_S4000000x6_S4000000x3_0_3 : S4000000x6.Slices ![0, 3] S4000000x3
  slices_S4000000x3_S4000000x1_0_0 : S4000000x3.Slices ![0, 0] S4000000x1
  shapeCasts_S4000000x1_S4000000 : S4000000x1.ShapeCasts S4000000
  slices_S4000000x3_S4000000x1_0_1 : S4000000x3.Slices ![0, 1] S4000000x1
  slices_S4000000x3_S4000000x1_0_2 : S4000000x3.Slices ![0, 2] S4000000x1
  bcast_S_S4000000 : S_.BroadcastsInDim S4000000 (![] : Fin 0 → Fin S4000000.rank)
  bcast_S4000000_S4000000x1_0 : S4000000.BroadcastsInDim S4000000x1 (![0] : Fin 1 → Fin S4000000x1.rank)
  concatenates_S4000000x1_S4000000x1_S4000000x1_S4000000x3_d1 : Shape.Concatenates [S4000000x1, S4000000x1, S4000000x1] S4000000x3 1
  bcast_S4000000x3_S4000000x1x3_0_2 : S4000000x3.BroadcastsInDim S4000000x1x3 (![0, 2] : Fin 2 → Fin S4000000x1x3.rank)
  concatenates_S4000000x1x3_S4000000x1x3_S4000000x1x3_S4000000x3x3_d1 : Shape.Concatenates [S4000000x1x3, S4000000x1x3, S4000000x1x3] S4000000x3x3 1
  reducesTo_S4000000x3_S4000000_d1 : S4000000x3.ReducesTo [1] S4000000
  h_S_ : 0 < S_.numel
  bcast_S_S3x3 : S_.BroadcastsInDim S3x3 (![] : Fin 0 → Fin S3x3.rank)
  bcast_S4000000_S4000000x1x1_0 : S4000000.BroadcastsInDim S4000000x1x1 (![0] : Fin 1 → Fin S4000000x1x1.rank)
  bcast_S4000000x1x1_S4000000x3x3_0_1_2 : S4000000x1x1.BroadcastsInDim S4000000x3x3 (![0, 1, 2] : Fin 3 → Fin S4000000x3x3.rank)
  bcast_S3x3_S1x3x3_1_2 : S3x3.BroadcastsInDim S1x3x3 (![1, 2] : Fin 2 → Fin S1x3x3.rank)
  bcast_S1x3x3_S4000000x3x3_0_1_2 : S1x3x3.BroadcastsInDim S4000000x3x3 (![0, 1, 2] : Fin 3 → Fin S4000000x3x3.rank)
  bcast_S4000000x3_S4000000x3x1_0_1 : S4000000x3.BroadcastsInDim S4000000x3x1 (![0, 1] : Fin 2 → Fin S4000000x3x1.rank)
  concatenates_S4000000x3x3_S4000000x3x1_S4000000x3x4_d2 : Shape.Concatenates [S4000000x3x3, S4000000x3x1] S4000000x3x4 2
  bcast_S1x1x4_S4000000x1x4_0_1_2 : S1x1x4.BroadcastsInDim S4000000x1x4 (![0, 1, 2] : Fin 3 → Fin S4000000x1x4.rank)
  concatenates_S4000000x3x4_S4000000x1x4_S4000000x4x4_d1 : Shape.Concatenates [S4000000x3x4, S4000000x1x4] S4000000x4x4 1
  dot_S4000000x3x3_S4000000x3x3_S4000000x3x3_2_1_1_2_0_0_wf : DotDims.WF S4000000x3x3 S4000000x3x3 S4000000x3x3 [2] [1] [1] [2] [0] [0]

variable [Facts₀]

def dot_S4000000x3x3_S4000000x3x3_S4000000x3x3_2_1_1_2_0_0 : DotDims S4000000x3x3 S4000000x3x3 S4000000x3x3 where
  lhsContracting := [2]
  rhsContracting := [1]
  lhsNonContracting := [1]
  rhsNonContracting := [2]
  lhsBatch := [0]
  rhsBatch := [0]
  wf := dot_S4000000x3x3_S4000000x3x3_S4000000x3x3_2_1_1_2_0_0_wf

class Facts : Prop extends Facts₀ where

variable [Facts]
-- ==== Proof.Spec.lean ====
/-
  The mathematics of one row, with no program in sight.

  A row of the input holds six numbers: a rotation vector w = (wx, wy, wz) and a translation t = (tx, ty, tz).
  Both programs write the 4x4 homogeneous matrix  [ R t ; 0 0 0 1 ]  where R = exp(K(w)) is given by Rodrigues'
  formula  R = I + A K + B K^2,  K = K(w) the skew-symmetric matrix of w,  theta^2 = |w|^2,
  A = sin(theta)/theta,  B = (1 - cos(theta))/theta^2, with the Taylor polynomials  A = 1 - theta^2/6,
  B = 1/2 - theta^2/24  below the threshold theta^2 < 1e-8.  One side writes the nine entries of R in closed form
  (diagonal: (1 - B theta^2) + B w_i^2;  off the diagonal: B w_i w_j minus or plus A w_k), the other forms K, K^2 = K K by a
  three-term contraction, and I + A K + B K^2.  Here both are stated as functions of the six entries of a row over
  the extended reals, one entry of the 4x4 matrix at a time; that they agree on REAL rows is the algebra
  (K^2 = w w^T - |w|^2 I, entry by entry).
-/
import Idealize.ShloMosaic.PureOps.Ideal
import Idealize.ShloMosaic.Lib.ValueIdx

noncomputable section

namespace Cert.Rodrigues

open Idealize.ShloMosaic Idealize.ShloMosaic.ValueIdx

/-- The input array's shape: 4,000,000 rows of six entries. -/
abbrev SIn : Shape := ⟨2, ![4000000, 6]⟩
/-- The result's shape: a 4x4 matrix per row. -/
abbrev SOut : Shape := ⟨3, ![4000000, 4, 4]⟩

/-- A float32 literal of either program, as the extended real its word denotes. -/
abbrev lit (b : BitVec 32) : EReal := Ideal.ofBits .f32 b

/-- theta^2 = wx^2 + wy^2 + wz^2. -/
def th2 (wx wy wz : EReal) : EReal := wx * wx + wy * wy + wz * wz

/-- The bit "theta^2 is below the threshold 1e-8 (the float32 nearest to it)". -/
def small (t : EReal) : BitVec 1 := Ideal.cmp .olt t (lit 0x322BCC77#32)

/-- theta, with theta^2 replaced by 1 below the threshold (the guarded square root). -/
def theta (t : EReal) : EReal := Ideal.sqrt (Scalar.select (small t) (lit 0x3F800000#32) t)

/-- A = sin(theta)/theta, or 1 - theta^2/6 below the threshold; `t` is theta^2. -/
def coefA (t : EReal) : EReal :=
  Scalar.select (small t) (lit 0x3F800000#32 - Ideal.div t (lit 0x40C00000#32)) (Ideal.div (Ideal.sin (theta t)) (theta t))

/-- B = (1 - cos(theta))/theta^2, or 1/2 - theta^2/24 below the threshold; `t` is theta^2. -/
def coefB (t : EReal) : EReal :=
  Scalar.select (small t) (lit 0x3F000000#32 - Ideal.div t (lit 0x41C00000#32))
    (Ideal.div (lit 0x3F800000#32 - Ideal.cos (theta t)) t)

/-- The closed form: the sixteen entries of the 4x4 matrix of a row `v`, in row-major order. -/
def closedEntry (v : Fin 6 → EReal) : Fin 16 → EReal :=
  let wx := v 0; let wy := v 1; let wz := v 2
  let t := th2 wx wy wz
  let A := coefA t; let B := coefB t
  let d := lit 0x3F800000#32 - B * t
  ![d + B * wx * wx,        B * (wx * wy) - A * wz,  B * (wz * wx) + A * wy,  v 3,
    B * (wx * wy) + A * wz, d + B * wy * wy,         B * (wy * wz) - A * wx,  v 4,
    B * (wz * wx) - A * wy, B * (wy * wz) + A * wx,  d + B * wz * wz,         v 5,
    lit 0x00000000#32,      lit 0x00000000#32,       lit 0x00000000#32,       lit 0x3F800000#32]

/-- The skew-symmetric matrix K(w): K(w) u = w x u. Its zeros are the float literal zero. -/
def skew (wx wy wz : EReal) : Fin 3 → Fin 3 → EReal :=
  ![![lit 0x00000000#32, -wz, wy], ![wz, lit 0x00000000#32, -wx], ![-wy, wx, lit 0x00000000#32]]

/-- The 3x3 identity's entries. -/
def eye (i j : Fin 3) : EReal := if i = j then 1 else 0

/-- (I + A K) + B (K K), entry (i, j), the product K K a three-term sum. -/
def rotEntry (wx wy wz : EReal) (i j : Fin 3) : EReal :=
  (eye i j + coefA (th2 wx wy wz) * skew wx wy wz i j)
    + coefB (th2 wx wy wz) * ∑ k : Fin 3, skew wx wy wz i k * skew wx wy wz k j

/-- The last row of a homogeneous matrix: 0 0 0 1, as float literals. -/
def lastRow : Fin 4 → EReal := ![lit 0x00000000#32, lit 0x00000000#32, lit 0x00000000#32, lit 0x3F800000#32]

/-- The matrix form: entry (i, j) of the 4x4 matrix of a row `v`: the rotation block, the translation column, the last row. -/
def matrixEntry (v : Fin 6 → EReal) (i j : Fin 4) : EReal :=
  if hi : i.val < 3 then
    if hj : j.val < 3 then rotEntry (v 0) (v 1) (v 2) ⟨i.val, hi⟩ ⟨j.val, hj⟩
    else v ⟨i.val + 3, by omega⟩
  else lastRow j

/-- Row `b` of the input array. -/
def rowAt (x : SIn.Idx → EReal) (b : Fin 4000000) : Fin 6 → EReal := fun k => x (ix2 b k)

/-- Position (i, j) of a 4x4 matrix in row-major order. -/
def flat (i j : Fin 4) : Fin 16 := ⟨4 * i.val + j.val, by omega⟩

/-- The whole result by the closed form: at (b, i, j), entry 4 i + j of row b's sixteen. -/
def closedOut (x : SIn.Idx → EReal) : SOut.Idx → EReal :=
  fun j => closedEntry (rowAt x ⟨(j 0).val, (j 0).isLt⟩) (flat ⟨(j 1).val, (j 1).isLt⟩ ⟨(j 2).val, (j 2).isLt⟩)

/-- The whole result by the matrix form. -/
def matrixOut (x : SIn.Idx → EReal) : SOut.Idx → EReal :=
  fun j => matrixEntry (rowAt x ⟨(j 0).val, (j 0).isLt⟩) ⟨(j 1).val, (j 1).isLt⟩ ⟨(j 2).val, (j 2).isLt⟩

theorem closedOut_ix3 (x : SIn.Idx → EReal) (b : Fin 4000000) (i j : Fin 4) :
    closedOut x (ix3 b i j) = closedEntry (rowAt x b) (flat i j) := rfl

theorem matrixOut_ix3 (x : SIn.Idx → EReal) (b : Fin 4000000) (i j : Fin 4) :
    matrixOut x (ix3 b i j) = matrixEntry (rowAt x b) i j := rfl

end Cert.Rodrigues

end
-- ==== Proof.Algebra.lean ====
/-
  The algebra of one row: the closed-form entries of Rodrigues' rotation matrix are the entries of
  (I + A K) + B (K K), with the translation column and the last row 0 0 0 1 beside them.

  Three steps. (1) The float words that occur denote the extended reals 0, 1, 6, 24, 1/2 and a positive real
  threshold. (2) For a real t ≥ 0 the two coefficients A(t), B(t) are real numbers: below the threshold they are
  the polynomials 1 - t/6 and 1/2 - t/24; at or above it t > 0, so theta = sqrt t is a positive real and both
  quotients sin(theta)/theta and (1 - cos(theta))/t divide by a nonzero real. (3) With A = a and B = b real and
  the row real, every entry is an identity between real polynomials in a, b and the row's entries: the square of
  the skew-symmetric matrix of w is  w w^T - |w|^2 I,  so the diagonal entry  1 + b (w_i^2 - |w|^2)  is
  (1 - b |w|^2) + b w_i^2  and the off-diagonal entry is  b w_i w_j  minus or plus  a w_k.
-/
import proofs.«107096_j31421980737562_1_alg».proof.Proof.Spec
import Idealize.ShloMosaic.PureOps.Ideal.Laws
import Idealize.ShloMosaic.Lib.IdealHost

noncomputable section

namespace Cert.Rodrigues

open Idealize.ShloMosaic Idealize.ShloMosaic.ValueIdx

/-! ## The literal words -/

/-- The all-zero word is the real 0. -/
theorem lit_zero : lit 0x00000000#32 = 0 := Ideal.ofBits_zero_f32

/-- Exponent field 127, empty fraction: the real 1. -/
theorem lit_one : lit 0x3F800000#32 = 1 := Ideal.ofBits_one_f32

/-- Exponent field 129, fraction one half: 1.5 * 4 = 6. -/
theorem lit_six : lit 0x40C00000#32 = ((6 : ℝ) : EReal) := by
  simp [lit, Ideal.ofBits, Ideal.ieee, -EReal.coe_mul]; norm_num

/-- Exponent field 131, fraction one half: 1.5 * 16 = 24. -/
theorem lit_twentyfour : lit 0x41C00000#32 = ((24 : ℝ) : EReal) := by
  simp [lit, Ideal.ofBits, Ideal.ieee, -EReal.coe_mul]; norm_num

/-- Exponent field 126, empty fraction: 1/2. -/
theorem lit_half : lit 0x3F000000#32 = (((1 : ℝ) / 2 : ℝ) : EReal) := by
  simp [lit, Ideal.ofBits, Ideal.ieee, -EReal.coe_mul]; norm_num

/-- The threshold word has sign bit 0 and an exponent field that is neither 0 nor 255: it denotes a positive
real (a positive integer times a power of two). Its exact value is not needed. -/
theorem lit_thr : ∃ e : ℝ, 0 < e ∧ lit 0x322BCC77#32 = (e : EReal) := by
  refine ⟨_, ?_, by simp [lit, Ideal.ofBits, Ideal.ieee, -EReal.coe_mul]; rfl⟩
  positivity

/-! ## The coefficients are real -/

/-- For a real t ≥ 0 both coefficients are real numbers. Below the threshold they are the polynomials
1 - t/6 and 1/2 - t/24. At or above it t is at least a positive number, so t > 0, its square root is a positive
real, sine and cosine of it are real, and the two quotients have nonzero real denominators sqrt t and t. The branch
that is not selected is never looked at. -/
theorem coef_real (t : ℝ) (ht : 0 ≤ t) :
    ∃ a b : ℝ, coefA (t : EReal) = (a : EReal) ∧ coefB (t : EReal) = (b : EReal) := by
  obtain ⟨e, he, hthr⟩ := lit_thr
  by_cases h : ((t : ℝ) : EReal) < lit 0x322BCC77#32
  · have hs : small (t : EReal) = 1#1 := by simp [small, Ideal.cmp, h]
    refine ⟨1 - t * (1 / 6), 1 / 2 - t * (1 / 24), ?_, ?_⟩
    · unfold coefA
      rw [hs, select_one, lit_one, lit_six, Ideal.div_coe (by norm_num)]
      norm_cast
    · unfold coefB
      rw [hs, select_one, lit_half, lit_twentyfour, Ideal.div_coe (by norm_num)]
      norm_cast
  · have hs : small (t : EReal) = 0#1 := by simp [small, Ideal.cmp, h]
    have hte : e ≤ t := by
      rw [hthr] at h
      exact_mod_cast not_lt.mp h
    have htpos : 0 < t := lt_of_lt_of_le he hte
    have hth : theta (t : EReal) = ((Real.sqrt t : ℝ) : EReal) := by
      unfold theta
      rw [hs, select_zero, Ideal.sqrt_coe, if_neg (not_lt.mpr ht)]
    have hsq : Real.sqrt t ≠ 0 := (Real.sqrt_pos.mpr htpos).ne'
    refine ⟨Real.sin (Real.sqrt t) * (1 / Real.sqrt t), (1 - Real.cos (Real.sqrt t)) * (1 / t), ?_, ?_⟩
    · unfold coefA
      rw [hs, select_zero, hth, Ideal.sin_coe, Ideal.div_coe hsq]
      norm_cast
    · unfold coefB
      rw [hs, select_zero, hth, Ideal.cos_coe, lit_one, Ideal.div_coe htpos.ne']
      norm_cast

/-! ## The sixteen entries -/

/-- On a real row the closed form and the matrix form agree entry by entry. theta^2 is the real
wx^2 + wy^2 + wz^2 ≥ 0, so A = a and B = b are reals; from there on a and b are plain unknowns. The translation
column and the last row are the same terms on both sides. In the rotation block the three-term sum
sum_k K_ik K_kj is  w_i w_j - |w|^2 delta_ij,  and each of the nine entries is an identity of real polynomials in
a, b, wx, wy, wz. -/
theorem entries_eq (v : Fin 6 → ℝ) (i j : Fin 4) :
    closedEntry (fun k => ((v k : ℝ) : EReal)) (flat i j) = matrixEntry (fun k => ((v k : ℝ) : EReal)) i j := by
  have ht : 0 ≤ v 0 * v 0 + v 1 * v 1 + v 2 * v 2 :=
    add_nonneg (add_nonneg (mul_self_nonneg _) (mul_self_nonneg _)) (mul_self_nonneg _)
  have hth2 : th2 (v 0 : EReal) (v 1 : EReal) (v 2 : EReal)
      = ((v 0 * v 0 + v 1 * v 1 + v 2 * v 2 : ℝ) : EReal) := by
    unfold th2; norm_cast
  obtain ⟨a, b, ha, hb⟩ := coef_real _ ht
  rw [← hth2] at ha hb
  fin_cases i <;> fin_cases j
  all_goals
    simp only [closedEntry, matrixEntry, rotEntry, ha, hb]
    simp [flat, skew, eye, lastRow, Fin.sum_univ_three, hth2, lit_zero, lit_one]
  all_goals (norm_cast; ring)

end Cert.Rodrigues

end
-- ==== Proof.Finite.lean ====
/-
  From the precondition to real numbers. The precondition says that every entry of the argument array has
  absolute value below +infinity (one conjunction over all entries equal to one). Read at an entry x: the larger of x
  and -x is below the top of the extended reals, so x is neither the top nor the bottom: it is a real number.
-/
import proofs.«107096_j31421980737562_1_alg».proof.Pre_finite_inputs
import Idealize.ShloMosaic.PureOps.Ideal
import Idealize.ShloMosaic.Lib.ReduceAll
import Idealize.ShloMosaic.Lib.ValueIdx

noncomputable section

namespace Cert.Pre_finite_inputs.Finite

open Idealize.ShloMosaic Idealize.ShloMosaic.ValueIdx Cert.Pre_finite_inputs

/-- The scalar shape has one index. -/
instance : Subsingleton S_.Idx := ⟨fun a b => funext fun d => d.elim0⟩

/-- The word 0x7F800000 denotes +infinity. -/
theorem inf_word : Ideal.ofBits .f32 0x7F800000#32 = ⊤ := by simp [Ideal.ofBits, Ideal.ieee]

/-- An extended real whose absolute value is below +infinity is a real number. -/
theorem real_of_abs_lt_top (y : EReal) (h : Ideal.cmp .olt (max y (-y)) (Ideal.ofBits .f32 0x7F800000#32) = 1#1) :
    ∃ r : ℝ, y = (r : EReal) := by
  have hlt : max y (-y) < ⊤ := by
    by_contra hn
    simp [Ideal.cmp, inf_word, hn] at h
  have h1 : y ≠ ⊤ := (lt_of_le_of_lt (le_max_left _ _) hlt).ne
  have h2 : y ≠ ⊥ := by
    intro hb
    have : -y < ⊤ := lt_of_le_of_lt (le_max_right _ _) hlt
    rw [hb] at this
    simp at this
  exact ⟨y.toReal, (EReal.coe_toReal h1 h2).symm⟩

/-- Under the precondition every entry of the argument array is a real number. -/
theorem real_of_pre [Facts] (x : FVec Ideal S4000000x6 .f32) (h : fn (F := Ideal) x = fun _ => 1#1) (i : S4000000x6.Idx) :
    ∃ r : ℝ, x i = (r : EReal) := by
  have h0 := congrFun h ix0
  dsimp only [fn] at h0
  exact real_of_abs_lt_top (x i) (Host.reduce_andi_all _ _ _ _ _ h0 i)

end Cert.Pre_finite_inputs.Finite

end
-- ==== Proof.RefRun.lean ====
/-
  The reference program as a straight line. Its @main is eighty-four tensor operations (the two outlined select
  helpers written out where they are called), listed here in four stretches: the two halves of a row and the three
  components of the rotation vectors; the skew-symmetric matrices built from them; theta^2, the threshold bit and the
  two coefficients; then K K, the identity, R = (I + A K) + B (K K), the translation column and the last row. The
  program is the sequence of these operations, and each touches TensorCore buffers only.
-/
import proofs.«107096_j31421980737562_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The first stretch: the last-row table, the two halves of a row, the three components of the rotation vectors. -/
abbrev opsA1 : List (HloOp τ sig (Elt F)) :=
  [
    StableHlo.nullary main_cst (fun i => FloatOps.ofBits .f32 (lit0 (S1x1x4.rowMajor i))),
    StableHlo.unary main_arg0 main_v0 ((extractStridedSlice S4000000x3 ![0, 0] · slices_S4000000x6_S4000000x3_0_0) : (⟨S4000000x6, .f32⟩ : BufTy).Contents (Elt F) → (⟨S4000000x3, .f32⟩ : BufTy).Contents (Elt F)),
    StableHlo.unary main_arg0 main_v1 ((extractStridedSlice S4000000x3 ![0, 3] · slices_S4000000x6_S4000000x3_0_3) : (⟨S4000000x6, .f32⟩ : BufTy).Contents (Elt F) → (⟨S4000000x3, .f32⟩ : BufTy).Contents (Elt F)),
    StableHlo.unary main_v0 main_v2 ((extractStridedSlice S4000000x1 ![0, 0] · slices_S4000000x3_S4000000x1_0_0) : (⟨S4000000x3, .f32⟩ : BufTy).Contents (Elt F) → (⟨S4000000x1, .f32⟩ : BufTy).Contents (Elt F)),
    StableHlo.reshape main_v2 main_v3 rfl shapeCasts_S4000000x1_S4000000,
    StableHlo.unary main_v0 main_v4 ((extractStridedSlice S4000000x1 ![0, 1] · slices_S4000000x3_S4000000x1_0_1) : (⟨S4000000x3, .f32⟩ : BufTy).Contents (Elt F) → (⟨S4000000x1, .f32⟩ : BufTy).Contents (Elt F)),
    StableHlo.reshape main_v4 main_v5 rfl shapeCasts_S4000000x1_S4000000,
    StableHlo.unary main_v0 main_v6 ((extractStridedSlice S4000000x1 ![0, 2] · slices_S4000000x3_S4000000x1_0_2) : (⟨S4000000x3, .f32⟩ : BufTy).Contents (Elt F) → (⟨S4000000x1, .f32⟩ : BufTy).Contents (Elt F)),
    StableHlo.reshape main_v6 main_v7 rfl shapeCasts_S4000000x1_S4000000 ]

/-- The second stretch: K for every row, its rows built from component columns and stacked. -/
abbrev opsA2 : List (HloOp τ sig (Elt F)) :=
  [
    StableHlo.nullary main_cst_0 (constant S_ .f32 0x00000000#32),
    StableHlo.unary main_cst_0 main_v8 (broadcastInDim S4000000 ![] bcast_S_S4000000 : (⟨S_, .f32⟩ : BufTy).Contents (Elt F) → (⟨S4000000, .f32⟩ : BufTy).Contents (Elt F)),
    StableHlo.unary main_v7 main_v9 (Host.negf : (⟨S4000000, .f32⟩ : BufTy).Contents (Elt F) → (⟨S4000000, .f32⟩ : BufTy).Contents (Elt F)),
    StableHlo.unary main_v8 main_v10 (broadcastInDim S4000000x1 ![0] bcast_S4000000_S4000000x1_0 : (⟨S4000000, .f32⟩ : BufTy).Contents (Elt F) → (⟨S4000000x1, .f32⟩ : BufTy).Contents (Elt F)),
    StableHlo.unary main_v9 main_v11 (broadcastInDim S4000000x1 ![0] bcast_S4000000_S4000000x1_0 : (⟨S4000000, .f32⟩ : BufTy).Contents (Elt F) → (⟨S4000000x1, .f32⟩ : BufTy).Contents (Elt F)),
    StableHlo.unary main_v5 main_v12 (broadcastInDim S4000000x1 ![0] bcast_S4000000_S4000000x1_0 : (⟨S4000000, .f32⟩ : BufTy).Contents (Elt F) → (⟨S4000000x1, .f32⟩ : BufTy).Contents (Elt F)),
    StableHlo.nary ![main_v10, main_v11, main_v12] main_v13 (fun u => concatenate S4000000x3 1 [⟨S4000000x1, u 0⟩, ⟨S4000000x1, u 1⟩, ⟨S4000000x1, u 2⟩] concatenates_S4000000x1_S4000000x1_S4000000x1_S4000000x3_d1),
    StableHlo.unary main_v3 main_v14 (Host.negf : (⟨S4000000, .f32⟩ : BufTy).Contents (Elt F) → (⟨S4000000, .f32⟩ : BufTy).Contents (Elt F)),
    StableHlo.unary main_v7 main_v15 (broadcastInDim S4000000x1 ![0] bcast_S4000000_S4000000x1_0 : (⟨S4000000, .f32⟩ : BufTy).Contents (Elt F) → (⟨S4000000x1, .f32⟩ : BufTy).Contents (Elt F)),
    StableHlo.unary main_v8 main_v16 (broadcastInDim S4000000x1 ![0] bcast_S4000000_S4000000x1_0 : (⟨S4000000, .f32⟩ : BufTy).Contents (Elt F) → (⟨S4000000x1, .f32⟩ : BufTy).Contents (Elt F)),
    StableHlo.unary main_v14 main_v17 (broadcastInDim S4000000x1 ![0] bcast_S4000000_S4000000x1_0 : (⟨S4000000, .f32⟩ : BufTy).Contents (Elt F) → (⟨S4000000x1, .f32⟩ : BufTy).Contents (Elt F)),
    StableHlo.nary ![main_v15, main_v16, main_v17] main_v18 (fun u => concatenate S4000000x3 1 [⟨S4000000x1, u 0⟩, ⟨S4000000x1, u 1⟩, ⟨S4000000x1, u 2⟩] concatenates_S4000000x1_S4000000x1_S4000000x1_S4000000x3_d1),
    StableHlo.unary main_v5 main_v19 (Host.negf : (⟨S4000000, .f32⟩ : BufTy).Contents (Elt F) → (⟨S4000000, .f32⟩ : BufTy).Contents (Elt F)),
    StableHlo.unary main_v19 main_v20 (broadcastInDim S4000000x1 ![0] bcast_S4000000_S4000000x1_0 : (⟨S4000000, .f32⟩ : BufTy).Contents (Elt F) → (⟨S4000000x1, .f32⟩ : BufTy).Contents (Elt F)),
    StableHlo.unary main_v3 main_v21 (broadcastInDim S4000000x1 ![0] bcast_S4000000_S4000000x1_0 : (⟨S4000000, .f32⟩ : BufTy).Contents (Elt F) → (⟨S4000000x1, .f32⟩ : BufTy).Contents (Elt F)),
    StableHlo.unary main_v8 main_v22 (broadcastInDim S4000000x1 ![0] bcast_S4000000_S4000000x1_0 : (⟨S4000000, .f32⟩ : BufTy).Contents (Elt F) → (⟨S4000000x1, .f32⟩ : BufTy).Contents (Elt F)),
    StableHlo.nary ![main_v20, main_v21, main_v22] main_v23 (fun u => concatenate S4000000x3 1 [⟨S4000000x1, u 0⟩, ⟨S4000000x1, u 1⟩, ⟨S4000000x1, u 2⟩] concatenates_S4000000x1_S4000000x1_S4000000x1_S4000000x3_d1),
    StableHlo.unary main_v13 main_v24 (broadcastInDim S4000000x1x3 ![0, 2] bcast_S4000000x3_S4000000x1x3_0_2 : (⟨S4000000x3, .f32⟩ : BufTy).Contents (Elt F) → (⟨S4000000x1x3, .f32⟩ : BufTy).Contents (Elt F)),
    StableHlo.unary main_v18 main_v25 (broadcastInDim S4000000x1x3 ![0, 2] bcast_S4000000x3_S4000000x1x3_0_2 : (⟨S4000000x3, .f32⟩ : BufTy).Contents (Elt F) → (⟨S4000000x1x3, .f32⟩ : BufTy).Contents (Elt F)),
    StableHlo.unary main_v23 main_v26 (broadcastInDim S4000000x1x3 ![0, 2] bcast_S4000000x3_S4000000x1x3_0_2 : (⟨S4000000x3, .f32⟩ : BufTy).Contents (Elt F) → (⟨S4000000x1x3, .f32⟩ : BufTy).Contents (Elt F)),
    StableHlo.nary ![main_v24, main_v25, main_v26] main_v27 (fun u => concatenate S4000000x3x3 1 [⟨S4000000x1x3, u 0⟩, ⟨S4000000x1x3, u 1⟩, ⟨S4000000x1x3, u 2⟩] concatenates_S4000000x1x3_S4000000x1x3_S4000000x1x3_S4000000x3x3_d1) ]

/-- The third stretch: theta^2, the threshold bit, the guarded square root and the two coefficients. -/
abbrev opsB : List (HloOp τ sig (Elt F)) :=
  [
    StableHlo.binary main_v0 main_v0 main_v28 (mulf : (⟨S4000000x3, .f32⟩ : BufTy).Contents (Elt F) → (⟨S4000000x3, .f32⟩ : BufTy).Contents (Elt F) → (⟨S4000000x3, .f32⟩ : BufTy).Contents (Elt F)),
    StableHlo.nullary main_cst_1 (constant S_ .f32 0x00000000#32),
    StableHlo.binary main_v28 main_cst_1 main_v29 ((fun x v => Host.reduceAdd x v reducesTo_S4000000x3_S4000000_d1 h_S_) : (⟨S4000000x3, .f32⟩ : BufTy).Contents (Elt F) → (⟨S_, .f32⟩ : BufTy).Contents (Elt F) → (⟨S4000000, .f32⟩ : BufTy).Contents (Elt F)),
    StableHlo.nullary main_cst_2 (constant S_ .f32 0x322BCC77#32),
    StableHlo.unary main_cst_2 main_v30 (broadcastInDim S4000000 ![] bcast_S_S4000000 : (⟨S_, .f32⟩ : BufTy).Contents (Elt F) → (⟨S4000000, .f32⟩ : BufTy).Contents (Elt F)),
    StableHlo.binary main_v29 main_v30 main_v31 (cmpf .olt : (⟨S4000000, .f32⟩ : BufTy).Contents (Elt F) → (⟨S4000000, .f32⟩ : BufTy).Contents (Elt F) → (⟨S4000000, .i1⟩ : BufTy).Contents (Elt F)),
    StableHlo.nullary main_cst_3 (constant S_ .f32 0x3F800000#32),
    StableHlo.TRef.unary (.of main_cst_3) main_call0.v0 id,
    StableHlo.TRef.unary main_call0.v0 main_call0.v1 (broadcastInDim S4000000 ![] bcast_S_S4000000),
    StableHlo.TRef.ternary (.of main_v31) main_call0.v1 (.of main_v29) main_call0.v2 select,
    StableHlo.unary main_v32 main_v33 (Host.sqrt : (⟨S4000000, .f32⟩ : BufTy).Contents (Elt F) → (⟨S4000000, .f32⟩ : BufTy).Contents (Elt F)),
    StableHlo.nullary main_cst_4 (constant S_ .f32 0x40C00000#32),
    StableHlo.unary main_cst_4 main_v34 (broadcastInDim S4000000 ![] bcast_S_S4000000 : (⟨S_, .f32⟩ : BufTy).Contents (Elt F) → (⟨S4000000, .f32⟩ : BufTy).Contents (Elt F)),
    StableHlo.binary main_v29 main_v34 main_v35 (Host.divf : (⟨S4000000, .f32⟩ : BufTy).Contents (Elt F) → (⟨S4000000, .f32⟩ : BufTy).Contents (Elt F) → (⟨S4000000, .f32⟩ : BufTy).Contents (Elt F)),
    StableHlo.nullary main_cst_5 (constant S_ .f32 0x3F800000#32),
    StableHlo.unary main_cst_5 main_v36 (broadcastInDim S4000000 ![] bcast_S_S4000000 : (⟨S_, .f32⟩ : BufTy).Contents (Elt F) → (⟨S4000000, .f32⟩ : BufTy).Contents (Elt F)),
    StableHlo.binary main_v36 main_v35 main_v37 (subf : (⟨S4000000, .f32⟩ : BufTy).Contents (Elt F) → (⟨S4000000, .f32⟩ : BufTy).Contents (Elt F) → (⟨S4000000, .f32⟩ : BufTy).Contents (Elt F)),
    StableHlo.unary main_v33 main_v38 (Host.sin : (⟨S4000000, .f32⟩ : BufTy).Contents (Elt F) → (⟨S4000000, .f32⟩ : BufTy).Contents (Elt F)),
    StableHlo.binary main_v38 main_v33 main_v39 (Host.divf : (⟨S4000000, .f32⟩ : BufTy).Contents (Elt F) → (⟨S4000000, .f32⟩ : BufTy).Contents (Elt F) → (⟨S4000000, .f32⟩ : BufTy).Contents (Elt F)),
    StableHlo.TRef.ternary (.of main_v31) (.of main_v37) (.of main_v39) main_call1.v0 select,
    StableHlo.nullary main_cst_6 (constant S_ .f32 0x41C00000#32),
    StableHlo.unary main_cst_6 main_v41 (broadcastInDim S4000000 ![] bcast_S_S4000000 : (⟨S_, .f32⟩ : BufTy).Contents (Elt F) → (⟨S4000000, .f32⟩ : BufTy).Contents (Elt F)),
    StableHlo.binary main_v29 main_v41 main_v42 (Host.divf : (⟨S4000000, .f32⟩ : BufTy).Contents (Elt F) → (⟨S4000000, .f32⟩ : BufTy).Contents (Elt F) → (⟨S4000000, .f32⟩ : BufTy).Contents (Elt F)),
    StableHlo.nullary main_cst_7 (constant S_ .f32 0x3F000000#32),
    StableHlo.unary main_cst_7 main_v43 (broadcastInDim S4000000 ![] bcast_S_S4000000 : (⟨S_, .f32⟩ : BufTy).Contents (Elt F) → (⟨S4000000, .f32⟩ : BufTy).Contents (Elt F)),
    StableHlo.binary main_v43 main_v42 main_v44 (subf : (⟨S4000000, .f32⟩ : BufTy).Contents (Elt F) → (⟨S4000000, .f32⟩ : BufTy).Contents (Elt F) → (⟨S4000000, .f32⟩ : BufTy).Contents (Elt F)),
    StableHlo.unary main_v33 main_v45 (Host.cos : (⟨S4000000, .f32⟩ : BufTy).Contents (Elt F) → (⟨S4000000, .f32⟩ : BufTy).Contents (Elt F)),
    StableHlo.nullary main_cst_8 (constant S_ .f32 0x3F800000#32),
    StableHlo.unary main_cst_8 main_v46 (broadcastInDim S4000000 ![] bcast_S_S4000000 : (⟨S_, .f32⟩ : BufTy).Contents (Elt F) → (⟨S4000000, .f32⟩ : BufTy).Contents (Elt F)),
    StableHlo.binary main_v46 main_v45 main_v47 (subf : (⟨S4000000, .f32⟩ : BufTy).Contents (Elt F) → (⟨S4000000, .f32⟩ : BufTy).Contents (Elt F) → (⟨S4000000, .f32⟩ : BufTy).Contents (Elt F)),
    StableHlo.binary main_v47 main_v29 main_v48 (Host.divf : (⟨S4000000, .f32⟩ : BufTy).Contents (Elt F) → (⟨S4000000, .f32⟩ : BufTy).Contents (Elt F) → (⟨S4000000, .f32⟩ : BufTy).Contents (Elt F)),
    StableHlo.TRef.ternary (.of main_v31) (.of main_v44) (.of main_v48) main_call2.v0 select ]

/-- The fourth stretch: K K, the identity, R, the translation column and the last row. -/
abbrev opsC : List (HloOp τ sig (Elt F)) :=
  [
    StableHlo.binary main_v27 main_v27 main_v50 ((fun l r => Host.dotGeneral dot_S4000000x3x3_S4000000x3x3_S4000000x3x3_2_1_1_2_0_0 none l r) : (⟨S4000000x3x3, .f32⟩ : BufTy).Contents (Elt F) → (⟨S4000000x3x3, .f32⟩ : BufTy).Contents (Elt F) → (⟨S4000000x3x3, .f32⟩ : BufTy).Contents (Elt F)),
    StableHlo.nullary main_v51 (iotaInDim S3x3 32 0),
    StableHlo.nullary main_v52 (iotaInDim S3x3 32 1),
    StableHlo.nullary main_c (constantI S_ 32 0#32),
    StableHlo.unary main_c main_v53 (broadcastInDim S3x3 ![] bcast_S_S3x3 : (⟨S_, .i32⟩ : BufTy).Contents (Elt F) → (⟨S3x3, .i32⟩ : BufTy).Contents (Elt F)),
    StableHlo.binary main_v51 main_v53 main_v54 (addi : (⟨S3x3, .i32⟩ : BufTy).Contents (Elt F) → (⟨S3x3, .i32⟩ : BufTy).Contents (Elt F) → (⟨S3x3, .i32⟩ : BufTy).Contents (Elt F)),
    StableHlo.binary main_v54 main_v52 main_v55 (cmpi .eq : (⟨S3x3, .i32⟩ : BufTy).Contents (Elt F) → (⟨S3x3, .i32⟩ : BufTy).Contents (Elt F) → (⟨S3x3, .i1⟩ : BufTy).Contents (Elt F)),
    StableHlo.unary main_v55 main_v56 (uitofp .f32 : (⟨S3x3, .i1⟩ : BufTy).Contents (Elt F) → (⟨S3x3, .f32⟩ : BufTy).Contents (Elt F)),
    StableHlo.unary main_v40 main_v57 (broadcastInDim S4000000x1x1 ![0] bcast_S4000000_S4000000x1x1_0 : (⟨S4000000, .f32⟩ : BufTy).Contents (Elt F) → (⟨S4000000x1x1, .f32⟩ : BufTy).Contents (Elt F)),
    StableHlo.unary main_v57 main_v58 (broadcastInDim S4000000x3x3 ![0, 1, 2] bcast_S4000000x1x1_S4000000x3x3_0_1_2 : (⟨S4000000x1x1, .f32⟩ : BufTy).Contents (Elt F) → (⟨S4000000x3x3, .f32⟩ : BufTy).Contents (Elt F)),
    StableHlo.binary main_v58 main_v27 main_v59 (mulf : (⟨S4000000x3x3, .f32⟩ : BufTy).Contents (Elt F) → (⟨S4000000x3x3, .f32⟩ : BufTy).Contents (Elt F) → (⟨S4000000x3x3, .f32⟩ : BufTy).Contents (Elt F)),
    StableHlo.unary main_v56 main_v60 (broadcastInDim S1x3x3 ![1, 2] bcast_S3x3_S1x3x3_1_2 : (⟨S3x3, .f32⟩ : BufTy).Contents (Elt F) → (⟨S1x3x3, .f32⟩ : BufTy).Contents (Elt F)),
    StableHlo.unary main_v60 main_v61 (broadcastInDim S4000000x3x3 ![0, 1, 2] bcast_S1x3x3_S4000000x3x3_0_1_2 : (⟨S1x3x3, .f32⟩ : BufTy).Contents (Elt F) → (⟨S4000000x3x3, .f32⟩ : BufTy).Contents (Elt F)),
    StableHlo.binary main_v61 main_v59 main_v62 (addf : (⟨S4000000x3x3, .f32⟩ : BufTy).Contents (Elt F) → (⟨S4000000x3x3, .f32⟩ : BufTy).Contents (Elt F) → (⟨S4000000x3x3, .f32⟩ : BufTy).Contents (Elt F)),
    StableHlo.unary main_v49 main_v63 (broadcastInDim S4000000x1x1 ![0] bcast_S4000000_S4000000x1x1_0 : (⟨S4000000, .f32⟩ : BufTy).Contents (Elt F) → (⟨S4000000x1x1, .f32⟩ : BufTy).Contents (Elt F)),
    StableHlo.unary main_v63 main_v64 (broadcastInDim S4000000x3x3 ![0, 1, 2] bcast_S4000000x1x1_S4000000x3x3_0_1_2 : (⟨S4000000x1x1, .f32⟩ : BufTy).Contents (Elt F) → (⟨S4000000x3x3, .f32⟩ : BufTy).Contents (Elt F)),
    StableHlo.binary main_v64 main_v50 main_v65 (mulf : (⟨S4000000x3x3, .f32⟩ : BufTy).Contents (Elt F) → (⟨S4000000x3x3, .f32⟩ : BufTy).Contents (Elt F) → (⟨S4000000x3x3, .f32⟩ : BufTy).Contents (Elt F)),
    StableHlo.binary main_v62 main_v65 main_v66 (addf : (⟨S4000000x3x3, .f32⟩ : BufTy).Contents (Elt F) → (⟨S4000000x3x3, .f32⟩ : BufTy).Contents (Elt F) → (⟨S4000000x3x3, .f32⟩ : BufTy).Contents (Elt F)),
    StableHlo.unary main_v1 main_v67 (broadcastInDim S4000000x3x1 ![0, 1] bcast_S4000000x3_S4000000x3x1_0_1 : (⟨S4000000x3, .f32⟩ : BufTy).Contents (Elt F) → (⟨S4000000x3x1, .f32⟩ : BufTy).Contents (Elt F)),
    StableHlo.binary main_v66 main_v67 main_v68 ((fun a b => concatenate S4000000x3x4 2 [⟨S4000000x3x3, a⟩, ⟨S4000000x3x1, b⟩] concatenates_S4000000x3x3_S4000000x3x1_S4000000x3x4_d2) : (⟨S4000000x3x3, .f32⟩ : BufTy).Contents (Elt F) → (⟨S4000000x3x1, .f32⟩ : BufTy).Contents (Elt F) → (⟨S4000000x3x4, .f32⟩ : BufTy).Contents (Elt F)),
    StableHlo.unary main_cst main_v69 (broadcastInDim S4000000x1x4 ![0, 1, 2] bcast_S1x1x4_S4000000x1x4_0_1_2 : (⟨S1x1x4, .f32⟩ : BufTy).Contents (Elt F) → (⟨S4000000x1x4, .f32⟩ : BufTy).Contents (Elt F)),
    StableHlo.binary main_v68 main_v69 main_v70 ((fun a b => concatenate S4000000x4x4 1 [⟨S4000000x3x4, a⟩, ⟨S4000000x1x4, b⟩] concatenates_S4000000x3x4_S4000000x1x4_S4000000x4x4_d1) : (⟨S4000000x3x4, .f32⟩ : BufTy).Contents (Elt F) → (⟨S4000000x1x4, .f32⟩ : BufTy).Contents (Elt F) → (⟨S4000000x4x4, .f32⟩ : BufTy).Contents (Elt F)) ]

/-- @main's operations, in order. -/
abbrev ops : List (HloOp τ sig (Elt F)) := ((opsA1 ++ opsA2) ++ opsB) ++ opsC

set_option maxRecDepth 4096 in
set_option maxHeartbeats 4000000 in
/-- The program's first window is the first three stretches: the helpers' bodies unfolded, the sequencing reassociated. -/
theorem part0_eq (c : Dev nD) : main_part0 (F := F) c = seq ((opsA1 ++ opsA2) ++ opsB) := by
  rw [seq_append, seq_append]
  simp only [main_part0, fn_where.body, fn_where_0.body, seq, bind_assoc, pure_bind]

set_option maxRecDepth 4096 in
set_option maxHeartbeats 4000000 in
/-- Its second window is the fourth stretch. -/
theorem part1_eq (c : Dev nD) : main_part1 (F := F) c = seq opsC := by
  simp only [main_part1, seq, bind_assoc, pure_bind]

/-- @main is the two windows one after the other: one straight line. -/
theorem main_eq (c : Dev nD) : main (F := F) c = seq ops := by
  rw [show (ops : List (HloOp τ sig (Elt F))) = ((opsA1 ++ opsA2) ++ opsB) ++ opsC from rfl, seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem opsA1_sub : (opsA1 : List (HloOp τ sig (Elt F))).Forall fun op => op.bufs ⊆ tcRefs τ sig :=
  ⟨nullary_bufs_sub .., unary_bufs_sub .., unary_bufs_sub .., unary_bufs_sub .., reshape_bufs_sub .., unary_bufs_sub .., reshape_bufs_sub .., unary_bufs_sub .., reshape_bufs_sub ..⟩
theorem opsA2_sub : (opsA2 : List (HloOp τ sig (Elt F))).Forall fun op => op.bufs ⊆ tcRefs τ sig :=
  ⟨nullary_bufs_sub .., unary_bufs_sub .., unary_bufs_sub .., unary_bufs_sub .., unary_bufs_sub .., unary_bufs_sub .., nary_bufs_sub .., unary_bufs_sub .., unary_bufs_sub .., unary_bufs_sub .., unary_bufs_sub .., nary_bufs_sub .., unary_bufs_sub .., unary_bufs_sub .., unary_bufs_sub .., unary_bufs_sub .., nary_bufs_sub .., unary_bufs_sub .., unary_bufs_sub .., unary_bufs_sub .., nary_bufs_sub ..⟩
theorem opsB_sub : (opsB : List (HloOp τ sig (Elt F))).Forall fun op => op.bufs ⊆ tcRefs τ sig :=
  ⟨binary_bufs_sub .., nullary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., unary_bufs_sub .., binary_bufs_sub .., ternary_bufs_sub .., nullary_bufs_sub .., unary_bufs_sub .., binary_bufs_sub .., nullary_bufs_sub .., unary_bufs_sub .., binary_bufs_sub .., unary_bufs_sub .., nullary_bufs_sub .., unary_bufs_sub .., binary_bufs_sub .., binary_bufs_sub .., ternary_bufs_sub ..⟩
theorem opsC_sub : (opsC : List (HloOp τ sig (Elt F))).Forall fun op => op.bufs ⊆ tcRefs τ sig :=
  ⟨binary_bufs_sub .., nullary_bufs_sub .., nullary_bufs_sub .., nullary_bufs_sub .., unary_bufs_sub .., binary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., binary_bufs_sub .., unary_bufs_sub .., binary_bufs_sub .., unary_bufs_sub .., binary_bufs_sub ..⟩

theorem ops_sub : (ops : List (HloOp τ sig (Elt F))).Forall fun op => op.bufs ⊆ tcRefs τ sig :=
  List.forall_iff_forall_mem.mpr fun op hop => by
    rcases List.mem_append.mp hop with h | h
    · rcases List.mem_append.mp h with h | h
      · rcases List.mem_append.mp h with h | h
        · exact List.forall_iff_forall_mem.mp opsA1_sub op h
        · exact List.forall_iff_forall_mem.mp opsA2_sub op h
      · exact List.forall_iff_forall_mem.mp opsB_sub op h
    · exact List.forall_iff_forall_mem.mp opsC_sub op h

end Cert.ReferenceIdeal.HandRun

end
-- ==== Proof.RefTerm.lean ====
/-
  The reference program's result as ONE term of its argument array, stage by stage in the order the program
  computes them: the two halves of a row (rotation vector, translation), the three components as vectors over the
  rows, the skew-symmetric matrices K (rows built by concatenating component columns, then stacked), theta^2 as
  the row sums of squares, the threshold bit, the guarded square root, the two coefficients A and B (each a select
  between the Taylor polynomial and the trigonometric quotient), K K by the batched three-term contraction, the
  identity from two iotas, R = (I + A K) + B (K K), the translation as a fourth column and the constant last row.
  Every stage is the program's own operation applied to earlier stages, at any float instance.
-/
import proofs.«107096_j31421980737562_1_alg».proof.ReferenceIdeal

noncomputable section

namespace Cert.ReferenceIdeal.Term

open Idealize.ShloMosaic Cert.ReferenceIdeal Cert.ReferenceIdeal.Facts₀

variable {F : FTy → Type} [FloatOps F] [Facts]

/-- Rows' first three entries: the rotation vectors. -/
def rotv (x : FVec F S4000000x6 .f32) : FVec F S4000000x3 .f32 :=
  extractStridedSlice S4000000x3 ![0, 0] x slices_S4000000x6_S4000000x3_0_0
/-- Rows' last three entries: the translations. -/
def trans (x : FVec F S4000000x6 .f32) : FVec F S4000000x3 .f32 :=
  extractStridedSlice S4000000x3 ![0, 3] x slices_S4000000x6_S4000000x3_0_3
/-- The three components of the rotation vectors, each a vector over the rows. -/
def c0 (x : FVec F S4000000x6 .f32) : FVec F S4000000 .f32 :=
  shapeCast S4000000 (extractStridedSlice S4000000x1 ![0, 0] (rotv x) slices_S4000000x3_S4000000x1_0_0) shapeCasts_S4000000x1_S4000000
def c1 (x : FVec F S4000000x6 .f32) : FVec F S4000000 .f32 :=
  shapeCast S4000000 (extractStridedSlice S4000000x1 ![0, 1] (rotv x) slices_S4000000x3_S4000000x1_0_1) shapeCasts_S4000000x1_S4000000
def c2 (x : FVec F S4000000x6 .f32) : FVec F S4000000 .f32 :=
  shapeCast S4000000 (extractStridedSlice S4000000x1 ![0, 2] (rotv x) slices_S4000000x3_S4000000x1_0_2) shapeCasts_S4000000x1_S4000000
/-- A float literal over the rows. -/
def splat (b : BitVec 32) : FVec F S4000000 .f32 :=
  broadcastInDim S4000000 ![] bcast_S_S4000000 (constant S_ .f32 b)
/-- A vector over the rows as a one-entry column. -/
def col (y : FVec F S4000000 .f32) : FVec F S4000000x1 .f32 :=
  broadcastInDim S4000000x1 ![0] bcast_S4000000_S4000000x1_0 y
/-- Three vectors over the rows side by side: one row of every K. -/
def krow (a b c : FVec F S4000000 .f32) : FVec F S4000000x3 .f32 :=
  concatenate S4000000x3 1 [⟨S4000000x1, col a⟩, ⟨S4000000x1, col b⟩, ⟨S4000000x1, col c⟩]
    concatenates_S4000000x1_S4000000x1_S4000000x1_S4000000x3_d1
/-- A row of every K as a 1x3 slab. -/
def slab (r : FVec F S4000000x3 .f32) : FVec F S4000000x1x3 .f32 :=
  broadcastInDim S4000000x1x3 ![0, 2] bcast_S4000000x3_S4000000x1x3_0_2 r
/-- K(w) for every row: rows (0, -wz, wy), (wz, 0, -wx), (-wy, wx, 0). -/
def skew (x : FVec F S4000000x6 .f32) : FVec F S4000000x3x3 .f32 :=
  concatenate S4000000x3x3 1
    [⟨S4000000x1x3, slab (krow (splat 0x00000000#32) (Host.negf (c2 x)) (c1 x))⟩,
     ⟨S4000000x1x3, slab (krow (c2 x) (splat 0x00000000#32) (Host.negf (c0 x)))⟩,
     ⟨S4000000x1x3, slab (krow (Host.negf (c1 x)) (c0 x) (splat 0x00000000#32))⟩]
    concatenates_S4000000x1x3_S4000000x1x3_S4000000x1x3_S4000000x3x3_d1
/-- theta^2: the row sums of the squared rotation vectors, from the initial value zero. -/
def th2 (x : FVec F S4000000x6 .f32) : FVec F S4000000 .f32 :=
  Host.reduceAdd (mulf (rotv x) (rotv x)) (constant S_ .f32 0x00000000#32) reducesTo_S4000000x3_S4000000_d1 h_S_
/-- The threshold bit theta^2 < 1e-8. -/
def small (x : FVec F S4000000x6 .f32) : IVec S4000000 1 :=
  cmpf .olt (th2 x) (splat 0x322BCC77#32)
/-- theta, with theta^2 replaced by one below the threshold. -/
def theta (x : FVec F S4000000x6 .f32) : FVec F S4000000 .f32 :=
  Host.sqrt (select (small x) (broadcastInDim S4000000 ![] bcast_S_S4000000 (id (constant S_ .f32 0x3F800000#32))) (th2 x))
/-- A: the Taylor polynomial below the threshold, sin(theta)/theta above. -/
def coefA (x : FVec F S4000000x6 .f32) : FVec F S4000000 .f32 :=
  select (small x) (subf (splat 0x3F800000#32) (Host.divf (th2 x) (splat 0x40C00000#32)))
    (Host.divf (Host.sin (theta x)) (theta x))
/-- B: the Taylor polynomial below the threshold, (1 - cos(theta))/theta^2 above. -/
def coefB (x : FVec F S4000000x6 .f32) : FVec F S4000000 .f32 :=
  select (small x) (subf (splat 0x3F000000#32) (Host.divf (th2 x) (splat 0x41C00000#32)))
    (Host.divf (subf (splat 0x3F800000#32) (Host.cos (theta x))) (th2 x))
/-- K K, the batched product contracting K's columns with K's rows. -/
def skew2 (x : FVec F S4000000x6 .f32) : FVec F S4000000x3x3 .f32 :=
  Host.dotGeneral dot_S4000000x3x3_S4000000x3x3_S4000000x3x3_2_1_1_2_0_0 none (skew x) (skew x)
/-- The 3x3 identity: the bit "row index + 0 = column index" as a float. -/
def eye3 : FVec F S3x3 .f32 :=
  uitofp .f32 (cmpi .eq (addi (iotaInDim S3x3 32 0) (broadcastInDim S3x3 ![] bcast_S_S3x3 (constantI S_ 32 0#32))) (iotaInDim S3x3 32 1))
/-- A vector over the rows broadcast to every entry of the rows' 3x3 matrices. -/
def perRow (y : FVec F S4000000 .f32) : FVec F S4000000x3x3 .f32 :=
  broadcastInDim S4000000x3x3 ![0, 1, 2] bcast_S4000000x1x1_S4000000x3x3_0_1_2
    (broadcastInDim S4000000x1x1 ![0] bcast_S4000000_S4000000x1x1_0 y)
/-- R = (I + A K) + B (K K). -/
def rot (x : FVec F S4000000x6 .f32) : FVec F S4000000x3x3 .f32 :=
  addf
    (addf (broadcastInDim S4000000x3x3 ![0, 1, 2] bcast_S1x3x3_S4000000x3x3_0_1_2 (broadcastInDim S1x3x3 ![1, 2] bcast_S3x3_S1x3x3_1_2 eye3))
      (mulf (perRow (coefA x)) (skew x)))
    (mulf (perRow (coefB x)) (skew2 x))
/-- [R | t]: the translation as a fourth column. -/
def top (x : FVec F S4000000x6 .f32) : FVec F S4000000x3x4 .f32 :=
  concatenate S4000000x3x4 2
    [⟨S4000000x3x3, rot x⟩, ⟨S4000000x3x1, broadcastInDim S4000000x3x1 ![0, 1] bcast_S4000000x3_S4000000x3x1_0_1 (trans x)⟩]
    concatenates_S4000000x3x3_S4000000x3x1_S4000000x3x4_d2
/-- The constant last row 0 0 0 1 under every [R | t]. -/
def bottom : FVec F S4000000x1x4 .f32 :=
  broadcastInDim S4000000x1x4 ![0, 1, 2] bcast_S1x1x4_S4000000x1x4_0_1_2 (fun i => FloatOps.ofBits .f32 (lit0 (S1x1x4.rowMajor i)))
/-- The reference's result. -/
def out (x : FVec F S4000000x6 .f32) : FVec F S4000000x4x4 .f32 :=
  concatenate S4000000x4x4 1 [⟨S4000000x3x4, top x⟩, ⟨S4000000x1x4, bottom⟩]
    concatenates_S4000000x3x4_S4000000x1x4_S4000000x4x4_d1

end Cert.ReferenceIdeal.Term

end
-- ==== Proof.LibHostRead.lean ====
/-
  Reading a straight line of host operations, stretch by stretch.

  A reference function with no kernel is a list of tensor operations run in order; what a buffer holds afterwards is
  the fold of the operations' results over the launch contents. Three general facts for reading that fold by hand:
  a list cut in two is read by reading the second part from what the first leaves; a concatenation of THREE computed
  operands (a stack of three rows, of three columns) writes its function of the three operands' contents, each read at
  its own buffer, so that reading can go on inside the operand list; and the reading loop itself — each operation's
  result at its own buffer is its function of its operands' contents, at any other buffer what was there — by
  rewriting, outermost first, which unlike a simplifier pass also reads inside a concatenation's operand list.
-/
import Idealize.ShloMosaic.Lib.StableHlo.Run

noncomputable section

namespace Idealize.ShloMosaic.StableHlo.HostRead

open Idealize.ShloMosaic Idealize.ShloMosaic.StableHlo

variable {τ : Topo} {sig : RefSig} {Val : EltTy → Type}

/-- Running two stretches one after the other is running the second from what the first leaves. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A concatenation of three computed operands writes its function of the three operands' contents, each read at its
    own buffer. -/
theorem nary3_result {x a b y : Ref sig .tc}
    (f : ((k : Fin 3) → ((![x, a, b] : Fin 3 → Ref sig .tc) k).ty.Contents Val) → y.ty.Contents Val) (hxs hy)
    (V : Valuation τ sig Val) :
    (nary (τ := τ) ![x, a, b] y f hxs hy).result V (Proc.devRef .tc y)
      = f (Fin.cons (V (Proc.devRef .tc x)) (Fin.cons (V (Proc.devRef .tc a)) (Fin.cons (V (Proc.devRef .tc b)) (fun i => i.elim0)))) := by
  rw [nary_result]; congr 1; funext k; fin_cases k <;> rfl

/-- Read a stretch of operations at a buffer: each operation's result at its own buffer is its function of its
    operands' contents, and at any other buffer what was there (the two buffers told apart by computation),
    outermost first, until nothing is left to read. The steps that pass an operation by come first: they are by far
    the most frequent. -/
macro "read_results" : tactic =>
  `(tactic| (simp only [after_cons, after_nil]
             repeat (first
               | (rw [unary_result_ne]; rotate_left; decide)
               | (rw [binary_result_ne]; rotate_left; decide)
               | (rw [nullary_result_ne]; rotate_left; decide)
               | (rw [nary_result_ne]; rotate_left; decide)
               | (rw [reshape_result_ne]; rotate_left; decide)
               | (rw [ternary_result_ne]; rotate_left; decide)
               | (rw [quaternary_result_ne]; rotate_left; decide)
               | rw [unary_result] | rw [binary_result] | rw [nullary_result] | rw [reshape_result]
               | rw [nary3_result] | rw [nary4_result] | rw [ternary_result] | rw [quaternary_result])))

end Idealize.ShloMosaic.StableHlo.HostRead

end
-- ==== Proof.RefRunValue.lean ====
/-
  The reference program's run read back. Run in order from the launch contents, each of the eighty-four operations
  writes its own result buffer from buffers written before it. Read stretch by stretch — each stretch from ANY
  contents in which the buffers it reads hold the stages they should — the first leaves the two halves of a row and
  the three components, the second the skew-symmetric matrices, the third the two coefficients, the fourth the result: the composed term stated stage
  by stage beside this module. No operation writes the argument array.
-/
import proofs.«107096_j31421980737562_1_alg».proof.Proof.RefRun
import proofs.«107096_j31421980737562_1_alg».proof.Proof.RefTerm
import proofs.«107096_j31421980737562_1_alg».proof.Proof.LibHostRead

noncomputable section

namespace Cert.ReferenceIdeal.HandRun

open Cert.ReferenceIdeal Cert.ReferenceIdeal.Gen Idealize.ShloMosaic Idealize.ShloMosaic.TcCoe Idealize.SL.Sem Idealize.ShloMosaic.StableHlo
open Idealize.ShloMosaic.StableHlo.HostRead

variable {F : FTy → Type} [FloatOps F]

/-! ## The first stretch: the halves of a row, the last-row table, the three components -/

set_option maxRecDepth 8192 in
set_option maxHeartbeats 4000000 in
theorem readA1 (V : Valuation τ sig (Elt F)) :
    after opsA1 V (main_v3 : DevRef τ sig) = Term.c0 (V (main_arg0 : DevRef τ sig))
    ∧ after opsA1 V (main_v5 : DevRef τ sig) = Term.c1 (V (main_arg0 : DevRef τ sig))
    ∧ after opsA1 V (main_v7 : DevRef τ sig) = Term.c2 (V (main_arg0 : DevRef τ sig))
    ∧ after opsA1 V (main_v0 : DevRef τ sig) = Term.rotv (V (main_arg0 : DevRef τ sig))
    ∧ after opsA1 V (main_v1 : DevRef τ sig) = Term.trans (V (main_arg0 : DevRef τ sig))
    ∧ after opsA1 V (main_cst : DevRef τ sig) = (fun i => FloatOps.ofBits .f32 (lit0 (S1x1x4.rowMajor i)))
    ∧ after opsA1 V (main_arg0 : DevRef τ sig) = V (main_arg0 : DevRef τ sig) := by
  refine ⟨?_, ?_, ?_, ?_, ?_, ?_, ?_⟩ <;> after_results_simp <;> rfl

/-! ## The second stretch: K, from the three components; it writes nothing else that is read later -/

set_option maxRecDepth 8192 in
set_option maxHeartbeats 8000000 in
theorem skewA2 (W : Valuation τ sig (Elt F)) (x : FVec F S4000000x6 .f32)
    (h3 : W (main_v3 : DevRef τ sig) = Term.c0 x) (h5 : W (main_v5 : DevRef τ sig) = Term.c1 x)
    (h7 : W (main_v7 : DevRef τ sig) = Term.c2 x) :
    after opsA2 W (main_v27 : DevRef τ sig) = Term.skew x := by
  read_results
  rw [h3, h5, h7]
  rfl

set_option maxRecDepth 8192 in
set_option maxHeartbeats 4000000 in
theorem keepA2 (W : Valuation τ sig (Elt F)) :
    after opsA2 W (main_v0 : DevRef τ sig) = W (main_v0 : DevRef τ sig)
    ∧ after opsA2 W (main_v1 : DevRef τ sig) = W (main_v1 : DevRef τ sig)
    ∧ after opsA2 W (main_cst : DevRef τ sig) = W (main_cst : DevRef τ sig)
    ∧ after opsA2 W (main_arg0 : DevRef τ sig) = W (main_arg0 : DevRef τ sig) := by
  refine ⟨?_, ?_, ?_, ?_⟩ <;> after_results_simp

/-! ## The third stretch: the two coefficients; it writes nothing the fourth stretch reads beside them -/

set_option maxRecDepth 8192 in
set_option maxHeartbeats 4000000 in
theorem coefA_B (W : Valuation τ sig (Elt F)) (x : FVec F S4000000x6 .f32)
    (h0 : W (main_v0 : DevRef τ sig) = Term.rotv x) :
    after opsB W (main_v40 : DevRef τ sig) = Term.coefA x := by
  after_results_simp
  rw [h0]
  rfl

set_option maxRecDepth 8192 in
set_option maxHeartbeats 4000000 in
theorem coefB_B (W : Valuation τ sig (Elt F)) (x : FVec F S4000000x6 .f32)
    (h0 : W (main_v0 : DevRef τ sig) = Term.rotv x) :
    after opsB W (main_v49 : DevRef τ sig) = Term.coefB x := by
  after_results_simp
  rw [h0]
  rfl

set_option maxRecDepth 8192 in
set_option maxHeartbeats 4000000 in
theorem keepB (W : Valuation τ sig (Elt F)) :
    after opsB W (main_v27 : DevRef τ sig) = W (main_v27 : DevRef τ sig)
    ∧ after opsB W (main_v1 : DevRef τ sig) = W (main_v1 : DevRef τ sig)
    ∧ after opsB W (main_cst : DevRef τ sig) = W (main_cst : DevRef τ sig)
    ∧ after opsB W (main_arg0 : DevRef τ sig) = W (main_arg0 : DevRef τ sig) := by
  refine ⟨?_, ?_, ?_, ?_⟩ <;> after_results_simp

/-! ## The fourth stretch: the result -/

set_option maxRecDepth 8192 in
set_option maxHeartbeats 8000000 in
theorem outC (W : Valuation τ sig (Elt F)) (x : FVec F S4000000x6 .f32)
    (h27 : W (main_v27 : DevRef τ sig) = Term.skew x) (h40 : W (main_v40 : DevRef τ sig) = Term.coefA x)
    (h49 : W (main_v49 : DevRef τ sig) = Term.coefB x) (h1 : W (main_v1 : DevRef τ sig) = Term.trans x)
    (hc : W (main_cst : DevRef τ sig) = fun i => FloatOps.ofBits .f32 (lit0 (S1x1x4.rowMajor i))) :
    after opsC W (main_v70 : DevRef τ sig) = Term.out x := by
  read_results
  rw [h27, h40, h49, h1, hc]
  rfl

set_option maxRecDepth 8192 in
set_option maxHeartbeats 4000000 in
theorem argC (W : Valuation τ sig (Elt F)) :
    after opsC W (main_arg0 : DevRef τ sig) = W (main_arg0 : DevRef τ sig) := by
  after_results_simp

/-! ## The whole line -/

/-- What the result buffer holds after the eighty-four operations: the composed term of the argument array. -/
theorem out_eq (V : Valuation τ sig (Elt F)) :
    after ops V (main_v70 : DevRef τ sig) = Term.out (V (main_arg0 : DevRef τ sig)) := by
  rw [show (ops : List (HloOp τ sig (Elt F))) = ((opsA1 ++ opsA2) ++ opsB) ++ opsC from rfl,
    after_append, after_append, after_append]
  obtain ⟨a3, a5, a7, a0, a1, ac, -⟩ := readA1 V
  generalize after opsA1 V = W1 at a3 a5 a7 a0 a1 ac ⊢
  obtain ⟨k0, k1, kc, -⟩ := keepA2 W1
  have s27 := skewA2 W1 _ a3 a5 a7
  have s0 := k0.trans a0
  have s1 := k1.trans a1
  have sc := kc.trans ac
  generalize after opsA2 W1 = WA at s27 s0 s1 sc ⊢
  obtain ⟨k27, k1', kc', -⟩ := keepB WA
  have b40 := coefA_B WA _ s0
  have b49 := coefB_B WA _ s0
  have b27 := k27.trans s27
  have b1 := k1'.trans s1
  have bc := kc'.trans sc
  generalize after opsB WA = WB at b40 b49 b27 b1 bc ⊢
  exact outC WB _ b27 b40 b49 b1 bc

/-- No operation writes the argument array. -/
theorem arg0_eq (V : Valuation τ sig (Elt F)) :
    after ops V (main_arg0 : DevRef τ sig) = V (main_arg0 : DevRef τ sig) := by
  rw [show (ops : List (HloOp τ sig (Elt F))) = ((opsA1 ++ opsA2) ++ opsB) ++ opsC from rfl,
    after_append, after_append, after_append, argC, (keepB _).2.2.2, (keepA2 _).2.2.2, (readA1 _).2.2.2.2.2.2]

/-- On every device, from any memory with zero counters: every weakly fair execution of @main terminates with the
    result at the composed term of the argument array and the argument array unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v70) = Term.out (m ((c.tc : Thread nD τ).loc main_arg0))
      ∧ r.2.mem ((c.tc : Thread nD τ).loc main_arg0) = m ((c.tc : Thread nD τ).loc main_arg0) :=
  (θ_run defs _ _).mono (fun _ h c => ⟨(h c main_v70).trans (out_eq _), (h c main_arg0).trans (arg0_eq _)⟩)
    (run_seq scopedRefs_eq scopedSems_eq defs main (fun _ => ops) main_eq (fun _ => ops_sub) m ρ)

end Cert.ReferenceIdeal.HandRun

end
-- ==== Proof.RefRead.lean ====
/-
  The reference's result read one entry at a time.

  Every stage of the reference is a layout operation (a slice, a reshape, a broadcast, a concatenation) or an
  entrywise operation on earlier stages, with one row sum and one three-term contraction among them. Read at an
  index written by its coordinates, each stage is an earlier stage at ONE index, or a scalar operation on the
  earlier stages' entries there. Stage by stage this turns entry (b, i, k) of the result into the matrix form of
  row b of the argument: the rotation block (I + A K) + B (K K) for i, k below three, the translation in column
  three, and the constant row 0 0 0 1 under them.
-/
import proofs.«107096_j31421980737562_1_alg».proof.Proof.Spec
import proofs.«107096_j31421980737562_1_alg».proof.Proof.RefTerm
import Idealize.ShloMosaic.Lib.ValueLayout
import Idealize.ShloMosaic.PureOps.Ideal.Laws
import Idealize.ShloMosaic.Lib.IdealHost
import Idealize.ShloMosaic.Lib.StackMember

noncomputable section

namespace Cert.ReferenceIdeal.Read

open Idealize.ShloMosaic Idealize.ShloMosaic.ValueIdx Cert.ReferenceIdeal

variable [Cert.ReferenceIdeal.Facts]

/-! ## The two halves of a row and the three components -/

/-- The rotation half of row b at position k is entry k of the row. -/
theorem rotv_apply (x : FVec Ideal S4000000x6 .f32) (b : Fin 4000000) (k : Fin 3) :
    Term.rotv x (ix2 b k) = x (ix2 b ⟨k.val, by omega⟩) :=
  slice2_axis1_apply 0 x _ b k ⟨k.val, by omega⟩ (Nat.zero_add _).symm

/-- The translation half of row b at position k is entry k + 3 of the row. -/
theorem trans_apply (x : FVec Ideal S4000000x6 .f32) (b : Fin 4000000) (k : Fin 3) :
    Term.trans x (ix2 b k) = x (ix2 b ⟨k.val + 3, by omega⟩) :=
  slice2_axis1_apply 3 x _ b k ⟨k.val + 3, by omega⟩ (Nat.add_comm _ _)

/-- A one-entry column of a matrix, flattened to a vector over the rows, reads the column's entry. -/
theorem flatten_col_apply (y : FVec Ideal S4000000x1 .f32) (h : S4000000x1.ShapeCasts S4000000) (b : Fin 4000000) :
    shapeCast S4000000 y h (ix1 b) = y (ix2 b 0) :=
  shapeCast_apply y h (ix1 b) (ix2 b 0) (by
    rw [Shape.rowMajor_val_two, Shape.rowMajor_val_one]; simp)

theorem c0_apply (x : FVec Ideal S4000000x6 .f32) (b : Fin 4000000) : Term.c0 x (ix1 b) = x (ix2 b 0) := by
  refine (flatten_col_apply _ _ b).trans ?_
  refine (slice2_axis1_apply 0 (Term.rotv x) _ b 0 0 rfl).trans ?_
  exact rotv_apply x b 0

theorem c1_apply (x : FVec Ideal S4000000x6 .f32) (b : Fin 4000000) : Term.c1 x (ix1 b) = x (ix2 b 1) := by
  refine (flatten_col_apply _ _ b).trans ?_
  refine (slice2_axis1_apply 1 (Term.rotv x) _ b 0 1 rfl).trans ?_
  exact rotv_apply x b 1

theorem c2_apply (x : FVec Ideal S4000000x6 .f32) (b : Fin 4000000) : Term.c2 x (ix1 b) = x (ix2 b 2) := by
  refine (flatten_col_apply _ _ b).trans ?_
  refine (slice2_axis1_apply 2 (Term.rotv x) _ b 0 2 rfl).trans ?_
  exact rotv_apply x b 2

/-- A literal over the rows reads the literal. -/
theorem splat_apply (w : BitVec 32) (b : Fin 4000000) :
    Term.splat (F := Ideal) w (ix1 b) = Ideal.ofBits .f32 w := rfl

/-! ## The skew-symmetric matrices, assembled from columns and rows -/

/-- A vector over the rows as a one-entry column reads the vector. -/
theorem col_apply (y : FVec Ideal S4000000 .f32) (b : Fin 4000000) (e : Fin 1) :
    Term.col y (ix2 b e) = y (ix1 b) :=
  broadcastInDim_apply _ _ y (ix2 b e) (ix1 b) (fun a => by
    match a with
    | ⟨0, _⟩ => rfl)

/-- Three vectors side by side: position 0 reads the first. -/
theorem krow_apply0 (p q r : FVec Ideal S4000000 .f32) (b : Fin 4000000) :
    Term.krow p q r (ix2 b 0) = p (ix1 b) := by
  refine (concatenate_apply_piece (1 : Fin 2) [⟨S4000000x1, Term.col p⟩, ⟨S4000000x1, Term.col q⟩, ⟨S4000000x1, Term.col r⟩] _ (ix2 b (0 : Fin 3)) 0 (by simp) S4000000x1 (Term.col p) rfl rfl 0 rfl
    (ix2 b 0) (fun a ha => ?_) rfl).trans (col_apply p b 0)
  match a with
  | ⟨0, _⟩ => rfl
  | ⟨1, _⟩ => exact absurd rfl ha

/-- Position 1 reads the second. -/
theorem krow_apply1 (p q r : FVec Ideal S4000000 .f32) (b : Fin 4000000) :
    Term.krow p q r (ix2 b 1) = q (ix1 b) := by
  refine (concatenate_apply_piece (1 : Fin 2) [⟨S4000000x1, Term.col p⟩, ⟨S4000000x1, Term.col q⟩, ⟨S4000000x1, Term.col r⟩] _ (ix2 b (1 : Fin 3)) 1 (by simp) S4000000x1 (Term.col q) rfl rfl 1 rfl
    (ix2 b 0) (fun a ha => ?_) rfl).trans (col_apply q b 0)
  match a with
  | ⟨0, _⟩ => rfl
  | ⟨1, _⟩ => exact absurd rfl ha

/-- Position 2 reads the third. -/
theorem krow_apply2 (p q r : FVec Ideal S4000000 .f32) (b : Fin 4000000) :
    Term.krow p q r (ix2 b 2) = r (ix1 b) := by
  refine (concatenate_apply_piece (1 : Fin 2) [⟨S4000000x1, Term.col p⟩, ⟨S4000000x1, Term.col q⟩, ⟨S4000000x1, Term.col r⟩] _ (ix2 b (2 : Fin 3)) 2 (by simp) S4000000x1 (Term.col r) rfl rfl 2 rfl
    (ix2 b 0) (fun a ha => ?_) rfl).trans (col_apply r b 0)
  match a with
  | ⟨0, _⟩ => rfl
  | ⟨1, _⟩ => exact absurd rfl ha

/-- A row of every K as a 1x3 slab reads the row. -/
theorem slab_apply (r : FVec Ideal S4000000x3 .f32) (b : Fin 4000000) (e : Fin 1) (k : Fin 3) :
    Term.slab r (ix3 b e k) = r (ix2 b k) :=
  broadcastInDim_apply _ _ r (ix3 b e k) (ix2 b k) (fun a => by
    match a with
    | ⟨0, _⟩ => rfl
    | ⟨1, _⟩ => rfl)

/-- The negated vector over the rows reads the negated entry. -/
theorem hostNegf_apply (y : FVec Ideal S4000000 .f32) (b : Fin 4000000) :
    Host.negf y (ix1 b) = -(y (ix1 b)) := rfl

/-- Three 1x3 slabs stacked into a 3x3 matrix: row 0 reads the first slab. -/
theorem stack_apply0 (p q r : FVec Ideal S4000000x1x3 .f32)
    (h : Shape.Concatenates [S4000000x1x3, S4000000x1x3, S4000000x1x3] S4000000x3x3 1) (b : Fin 4000000) (k : Fin 3) :
    concatenate S4000000x3x3 1 [⟨S4000000x1x3, p⟩, ⟨S4000000x1x3, q⟩, ⟨S4000000x1x3, r⟩] h (ix3 b 0 k) = p (ix3 b 0 k) := by
  refine concatenate_apply_piece (t := S4000000x3x3) (1 : Fin 3) [⟨S4000000x1x3, p⟩, ⟨S4000000x1x3, q⟩, ⟨S4000000x1x3, r⟩] h (ix3 b (0 : Fin 3) k)
    0 (by simp) S4000000x1x3 p rfl rfl 0 rfl (ix3 b 0 k) (fun a ha => ?_) rfl
  match a with
  | ⟨0, _⟩ => rfl
  | ⟨1, _⟩ => exact absurd rfl ha
  | ⟨2, _⟩ => rfl

/-- Row 1 reads the second slab. -/
theorem stack_apply1 (p q r : FVec Ideal S4000000x1x3 .f32)
    (h : Shape.Concatenates [S4000000x1x3, S4000000x1x3, S4000000x1x3] S4000000x3x3 1) (b : Fin 4000000) (k : Fin 3) :
    concatenate S4000000x3x3 1 [⟨S4000000x1x3, p⟩, ⟨S4000000x1x3, q⟩, ⟨S4000000x1x3, r⟩] h (ix3 b 1 k) = q (ix3 b 0 k) := by
  refine concatenate_apply_piece (t := S4000000x3x3) (1 : Fin 3) [⟨S4000000x1x3, p⟩, ⟨S4000000x1x3, q⟩, ⟨S4000000x1x3, r⟩] h (ix3 b (1 : Fin 3) k)
    1 (by simp) S4000000x1x3 q rfl rfl 1 rfl (ix3 b 0 k) (fun a ha => ?_) rfl
  match a with
  | ⟨0, _⟩ => rfl
  | ⟨1, _⟩ => exact absurd rfl ha
  | ⟨2, _⟩ => rfl

/-- Row 2 reads the third slab. -/
theorem stack_apply2 (p q r : FVec Ideal S4000000x1x3 .f32)
    (h : Shape.Concatenates [S4000000x1x3, S4000000x1x3, S4000000x1x3] S4000000x3x3 1) (b : Fin 4000000) (k : Fin 3) :
    concatenate S4000000x3x3 1 [⟨S4000000x1x3, p⟩, ⟨S4000000x1x3, q⟩, ⟨S4000000x1x3, r⟩] h (ix3 b 2 k) = r (ix3 b 0 k) := by
  refine concatenate_apply_piece (t := S4000000x3x3) (1 : Fin 3) [⟨S4000000x1x3, p⟩, ⟨S4000000x1x3, q⟩, ⟨S4000000x1x3, r⟩] h (ix3 b (2 : Fin 3) k)
    2 (by simp) S4000000x1x3 r rfl rfl 2 rfl (ix3 b 0 k) (fun a ha => ?_) rfl
  match a with
  | ⟨0, _⟩ => rfl
  | ⟨1, _⟩ => exact absurd rfl ha
  | ⟨2, _⟩ => rfl

/-- Entry (i, k) of the reference's K for row b is entry (i, k) of K(w) for that row's w. -/
theorem skew_apply (x : FVec Ideal S4000000x6 .f32) (b : Fin 4000000) (i k : Fin 3) :
    Term.skew x (ix3 b i k) = Cert.Rodrigues.skew (x (ix2 b 0)) (x (ix2 b 1)) (x (ix2 b 2)) i k := by
  unfold Term.skew
  fin_cases i
  · refine (stack_apply0 _ _ _ _ b k).trans ((slab_apply _ b 0 k).trans ?_)
    fin_cases k
    · exact (krow_apply0 _ _ _ b).trans (splat_apply _ b)
    · exact (krow_apply1 _ _ _ b).trans ((hostNegf_apply _ b).trans (congrArg Neg.neg (c2_apply x b)))
    · exact (krow_apply2 _ _ _ b).trans (c1_apply x b)
  · refine (stack_apply1 _ _ _ _ b k).trans ((slab_apply _ b 0 k).trans ?_)
    fin_cases k
    · exact (krow_apply0 _ _ _ b).trans (c2_apply x b)
    · exact (krow_apply1 _ _ _ b).trans (splat_apply _ b)
    · exact (krow_apply2 _ _ _ b).trans ((hostNegf_apply _ b).trans (congrArg Neg.neg (c0_apply x b)))
  · refine (stack_apply2 _ _ _ _ b k).trans ((slab_apply _ b 0 k).trans ?_)
    fin_cases k
    · exact (krow_apply0 _ _ _ b).trans ((hostNegf_apply _ b).trans (congrArg Neg.neg (c1_apply x b)))
    · exact (krow_apply1 _ _ _ b).trans (c0_apply x b)
    · exact (krow_apply2 _ _ _ b).trans (splat_apply _ b)

/-! ## theta^2, the threshold bit, theta and the two coefficients -/

/-- The row sum of squares for row b is theta^2 of that row's w. -/
theorem th2_apply (x : FVec Ideal S4000000x6 .f32) (b : Fin 4000000) :
    Term.th2 x (ix1 b) = Cert.Rodrigues.th2 (x (ix2 b 0)) (x (ix2 b 1)) (x (ix2 b 2)) := by
  have hR : S4000000x3.Reduces [1] S4000000 := by decide
  have hl : ∀ k : Fin 3, hR.lift (ix1 b) k = ix2 b k := fun k => by
    funext c; apply Fin.ext
    match c with
    | ⟨0, _⟩ => rfl
    | ⟨1, _⟩ => rfl
  show Ideal.hostReduceAdd _ (mulf (Term.rotv x) (Term.rotv x)) (Ideal.ofBits .f32 0x00000000#32) (ix1 b) = _
  rw [Ideal.hostReduceAdd_single _ hR, Ideal.ofBits_zero_f32, zero_add]
  refine (Fin.sum_univ_three _).trans ?_
  rw [hl 0, hl 1, hl 2]
  show Term.rotv x (ix2 b 0) * Term.rotv x (ix2 b 0) + Term.rotv x (ix2 b 1) * Term.rotv x (ix2 b 1)
    + Term.rotv x (ix2 b 2) * Term.rotv x (ix2 b 2) = _
  rw [rotv_apply x b 0, rotv_apply x b 1, rotv_apply x b 2]
  rfl

-- from here on theta^2 of a row is only ever read through `th2_apply`
attribute [local irreducible] Term.th2

/-- The threshold bit of row b is the bit of its theta^2. -/
theorem small_apply (x : FVec Ideal S4000000x6 .f32) (b : Fin 4000000) :
    Term.small x (ix1 b) = Cert.Rodrigues.small (Term.th2 x (ix1 b)) := by
  unfold Term.small
  rw [cmpf_apply]
  rfl

/-- A guarded square root read at a row. -/
theorem sqrt_select_apply (c : IVec S4000000 1) (u v : FVec Ideal S4000000 .f32) (b : Fin 4000000) :
    Host.sqrt (select c u v) (ix1 b) = Ideal.sqrt (Scalar.select (c (ix1 b)) (u (ix1 b)) (v (ix1 b))) := rfl

/-- A constant less a quotient, read at a row. -/
theorem taylor_apply (c t d : FVec Ideal S4000000 .f32) (b : Fin 4000000) :
    subf c (Host.divf t d) (ix1 b) = c (ix1 b) - Ideal.div (t (ix1 b)) (d (ix1 b)) := rfl

/-- sin(theta)/theta read at a row. -/
theorem sinc_apply (th : FVec Ideal S4000000 .f32) (b : Fin 4000000) :
    Host.divf (Host.sin th) th (ix1 b) = Ideal.div (Ideal.sin (th (ix1 b))) (th (ix1 b)) := rfl

/-- (c - cos(theta))/t read at a row. -/
theorem cosc_apply (c th t : FVec Ideal S4000000 .f32) (b : Fin 4000000) :
    Host.divf (subf c (Host.cos th)) t (ix1 b) = Ideal.div (c (ix1 b) - Ideal.cos (th (ix1 b))) (t (ix1 b)) := rfl

/-- The guarded square root of row b. -/
theorem theta_apply (x : FVec Ideal S4000000x6 .f32) (b : Fin 4000000) :
    Term.theta x (ix1 b) = Cert.Rodrigues.theta (Term.th2 x (ix1 b)) := by
  unfold Term.theta
  refine (sqrt_select_apply _ _ _ b).trans ?_
  rw [small_apply]
  rfl

/-- The coefficient A of row b. -/
theorem coefA_apply (x : FVec Ideal S4000000x6 .f32) (b : Fin 4000000) :
    Term.coefA x (ix1 b) = Cert.Rodrigues.coefA (Term.th2 x (ix1 b)) := by
  unfold Term.coefA
  rw [select_apply, taylor_apply, sinc_apply, small_apply, theta_apply, splat_apply, splat_apply]
  rfl

/-- The coefficient B of row b. -/
theorem coefB_apply (x : FVec Ideal S4000000x6 .f32) (b : Fin 4000000) :
    Term.coefB x (ix1 b) = Cert.Rodrigues.coefB (Term.th2 x (ix1 b)) := by
  unfold Term.coefB
  rw [select_apply, taylor_apply, cosc_apply, small_apply, theta_apply, splat_apply, splat_apply, splat_apply]
  rfl

attribute [local irreducible] Term.skew Term.small Term.theta Term.coefA Term.coefB

/-! ## K K, the identity, and the rotation block -/

/-- Entry (i, k) of the batched product is the three-term sum over the contracted coordinate. -/
theorem skew2_apply (x : FVec Ideal S4000000x6 .f32) (b : Fin 4000000) (i k : Fin 3) :
    Term.skew2 x (ix3 b i k) = ∑ m : Fin 3, Term.skew x (ix3 b i m) * Term.skew x (ix3 b m k) :=
  StackMember.dotGeneral_stack_apply _ none (Term.skew x) (Term.skew x) b i k

/-- The bit "row index + 0 = column index" as a float is the identity's entry. -/
theorem eye3_apply (i k : Fin 3) : Term.eye3 (F := Ideal) (ix2 i k) = Cert.Rodrigues.eye i k := by
  show (((IntOp.cmpi .eq (IntOp.addi (BitVec.ofNat 32 i.val) 0#32) (BitVec.ofNat 32 k.val)).toNat : ℝ) : EReal) = _
  fin_cases i <;> fin_cases k
  · rw [show IntOp.cmpi .eq (IntOp.addi (BitVec.ofNat 32 0) 0#32) (BitVec.ofNat 32 0) = 1#1 from by decide]; simp [Cert.Rodrigues.eye]
  · rw [show IntOp.cmpi .eq (IntOp.addi (BitVec.ofNat 32 0) 0#32) (BitVec.ofNat 32 1) = 0#1 from by decide]; simp [Cert.Rodrigues.eye]
  · rw [show IntOp.cmpi .eq (IntOp.addi (BitVec.ofNat 32 0) 0#32) (BitVec.ofNat 32 2) = 0#1 from by decide]; simp [Cert.Rodrigues.eye]
  · rw [show IntOp.cmpi .eq (IntOp.addi (BitVec.ofNat 32 1) 0#32) (BitVec.ofNat 32 0) = 0#1 from by decide]; simp [Cert.Rodrigues.eye]
  · rw [show IntOp.cmpi .eq (IntOp.addi (BitVec.ofNat 32 1) 0#32) (BitVec.ofNat 32 1) = 1#1 from by decide]; simp [Cert.Rodrigues.eye]
  · rw [show IntOp.cmpi .eq (IntOp.addi (BitVec.ofNat 32 1) 0#32) (BitVec.ofNat 32 2) = 0#1 from by decide]; simp [Cert.Rodrigues.eye]
  · rw [show IntOp.cmpi .eq (IntOp.addi (BitVec.ofNat 32 2) 0#32) (BitVec.ofNat 32 0) = 0#1 from by decide]; simp [Cert.Rodrigues.eye]
  · rw [show IntOp.cmpi .eq (IntOp.addi (BitVec.ofNat 32 2) 0#32) (BitVec.ofNat 32 1) = 0#1 from by decide]; simp [Cert.Rodrigues.eye]
  · rw [show IntOp.cmpi .eq (IntOp.addi (BitVec.ofNat 32 2) 0#32) (BitVec.ofNat 32 2) = 1#1 from by decide]; simp [Cert.Rodrigues.eye]

/-- A 3x3 matrix broadcast to every row reads the matrix. -/
theorem everyRow_apply (e : FVec Ideal S3x3 .f32) (b : Fin 4000000) (i k : Fin 3) :
    broadcastInDim S4000000x3x3 ![0, 1, 2] Facts₀.bcast_S1x3x3_S4000000x3x3_0_1_2
      (broadcastInDim S1x3x3 ![1, 2] Facts₀.bcast_S3x3_S1x3x3_1_2 e) (ix3 b i k) = e (ix2 i k) := by
  refine (broadcastInDim_apply _ _ _ (ix3 b i k) (ix3 (0 : Fin 1) i k) (fun a => ?_)).trans
    (broadcastInDim_apply _ _ e (ix3 (0 : Fin 1) i k) (ix2 i k) (fun a => ?_))
  · match a with
    | ⟨0, _⟩ => rfl
    | ⟨1, _⟩ => rfl
    | ⟨2, _⟩ => rfl
  · match a with
    | ⟨0, _⟩ => rfl
    | ⟨1, _⟩ => rfl

/-- A vector over the rows broadcast to the rows' matrices reads the row's entry. -/
theorem perRow_apply (y : FVec Ideal S4000000 .f32) (b : Fin 4000000) (i k : Fin 3) :
    Term.perRow y (ix3 b i k) = y (ix1 b) := by
  refine (broadcastInDim_apply _ _ _ (ix3 b i k) (ix3 b (0 : Fin 1) (0 : Fin 1)) (fun a => ?_)).trans
    (broadcastInDim_apply _ _ y (ix3 b (0 : Fin 1) (0 : Fin 1)) (ix1 b) (fun a => ?_))
  · match a with
    | ⟨0, _⟩ => rfl
    | ⟨1, _⟩ => rfl
    | ⟨2, _⟩ => rfl
  · match a with
    | ⟨0, _⟩ => rfl

attribute [local irreducible] Term.skew2 Term.perRow

/-- Entry (i, k) of the reference's rotation block for row b is (I + A K) + B (K K) at (i, k), for that row's w. -/
theorem rot_apply (x : FVec Ideal S4000000x6 .f32) (b : Fin 4000000) (i k : Fin 3) :
    Term.rot x (ix3 b i k) = Cert.Rodrigues.rotEntry (x (ix2 b 0)) (x (ix2 b 1)) (x (ix2 b 2)) i k := by
  have hs : ∑ m : Fin 3, Term.skew x (ix3 b i m) * Term.skew x (ix3 b m k)
      = ∑ m : Fin 3, Cert.Rodrigues.skew (x (ix2 b 0)) (x (ix2 b 1)) (x (ix2 b 2)) i m
          * Cert.Rodrigues.skew (x (ix2 b 0)) (x (ix2 b 1)) (x (ix2 b 2)) m k :=
    Finset.sum_congr rfl fun m _ => by rw [skew_apply, skew_apply]
  unfold Term.rot
  rw [addf_apply, addf_apply, mulf_apply, mulf_apply, everyRow_apply, perRow_apply, perRow_apply, eye3_apply,
    coefA_apply, coefB_apply, th2_apply, skew2_apply, skew_apply, hs]
  rfl

attribute [local irreducible] Term.rot Term.trans

/-! ## The translation column and the last row -/

/-- Left of column three, [R | t] reads R. -/
theorem top_rot (x : FVec Ideal S4000000x6 .f32) (b : Fin 4000000) (i : Fin 3) (k : Fin 4) (hk : k.val < 3) :
    Term.top x (ix3 b i k) = Term.rot x (ix3 b i ⟨k.val, hk⟩) := by
  unfold Term.top
  refine concatenate_pair_apply_left (t := S4000000x3x4) (s₁ := S4000000x3x3) (s₂ := S4000000x3x1) (2 : Fin 3) _ _ _ (ix3 b i k) rfl (ix3 b i ⟨k.val, hk⟩) (fun a => ?_)
  match a with
  | ⟨0, _⟩ => rfl
  | ⟨1, _⟩ => rfl
  | ⟨2, _⟩ => rfl

/-- Column three of [R | t] reads the translation. -/
theorem top_trans (x : FVec Ideal S4000000x6 .f32) (b : Fin 4000000) (i : Fin 3) (k : Fin 4) (hk : ¬k.val < 3) :
    Term.top x (ix3 b i k) = Term.trans x (ix2 b i) := by
  unfold Term.top
  refine (concatenate_pair_apply_right (t := S4000000x3x4) (s₁ := S4000000x3x3) (s₂ := S4000000x3x1) (2 : Fin 3) _ _ _ (ix3 b i k) rfl rfl (ix3 b i (0 : Fin 1))
    (fun a ha => ?_) ?_).trans
    (broadcastInDim_apply _ _ (Term.trans x) (ix3 b i (0 : Fin 1)) (ix2 b i) (fun a => ?_))
  · match a with
    | ⟨0, _⟩ => rfl
    | ⟨1, _⟩ => rfl
    | ⟨2, _⟩ => exact absurd rfl ha
  · show 0 + 3 = k.val
    have := k.isLt
    omega
  · match a with
    | ⟨0, _⟩ => rfl
    | ⟨1, _⟩ => rfl

/-- The constant row under every [R | t] reads 0 0 0 1. -/
theorem bottom_apply (b : Fin 4000000) (e : Fin 1) (k : Fin 4) :
    Term.bottom (F := Ideal) (ix3 b e k) = Cert.Rodrigues.lastRow k := by
  unfold Term.bottom
  refine (broadcastInDim_apply _ _ _ (ix3 b e k) (ix3 (0 : Fin 1) (0 : Fin 1) k) (fun a => ?_)).trans ?_
  · match a with
    | ⟨0, _⟩ => rfl
    | ⟨1, _⟩ => rfl
    | ⟨2, _⟩ => rfl
  · have hp : S1x1x4.rowMajor (ix3 (0 : Fin 1) (0 : Fin 1) k) = ⟨k.val, k.isLt⟩ :=
      Fin.ext (by rw [Shape.rowMajor_val_three]; simp)
    show Ideal.ofBits .f32 (lit0 (S1x1x4.rowMajor (ix3 (0 : Fin 1) (0 : Fin 1) k))) = _
    rw [hp]
    fin_cases k <;> rfl

attribute [local irreducible] Term.top Term.bottom

/-- Above row three the result reads [R | t]. -/
theorem out_top (x : FVec Ideal S4000000x6 .f32) (b : Fin 4000000) (i k : Fin 4) (hi : i.val < 3) :
    Term.out x (ix3 b i k) = Term.top x (ix3 b ⟨i.val, hi⟩ k) := by
  unfold Term.out
  refine concatenate_pair_apply_left (t := S4000000x4x4) (s₁ := S4000000x3x4) (s₂ := S4000000x1x4) (1 : Fin 3) _ _ _ (ix3 b i k) rfl (ix3 b ⟨i.val, hi⟩ k) (fun a => ?_)
  match a with
  | ⟨0, _⟩ => rfl
  | ⟨1, _⟩ => rfl
  | ⟨2, _⟩ => rfl

/-- Row three of the result reads the constant row. -/
theorem out_bottom (x : FVec Ideal S4000000x6 .f32) (b : Fin 4000000) (i k : Fin 4) (hi : ¬i.val < 3) :
    Term.out x (ix3 b i k) = Term.bottom (F := Ideal) (ix3 b (0 : Fin 1) k) := by
  unfold Term.out
  refine concatenate_pair_apply_right (t := S4000000x4x4) (s₁ := S4000000x3x4) (s₂ := S4000000x1x4) (1 : Fin 3) _ _ _ (ix3 b i k) rfl rfl (ix3 b (0 : Fin 1) k)
    (fun a ha => ?_) ?_
  · match a with
    | ⟨0, _⟩ => rfl
    | ⟨1, _⟩ => exact absurd rfl ha
    | ⟨2, _⟩ => rfl
  · show 0 + 3 = i.val
    have := i.isLt
    omega

/-! ## The result -/

/-- Entry (b, i, k) of the reference's result is the matrix form's entry (i, k) of row b. -/
theorem out_entry (x : FVec Ideal S4000000x6 .f32) (b : Fin 4000000) (i k : Fin 4) :
    Term.out x (ix3 b i k) = Cert.Rodrigues.matrixEntry (Cert.Rodrigues.rowAt x b) i k := by
  unfold Cert.Rodrigues.matrixEntry
  by_cases hi : i.val < 3
  · rw [dif_pos hi, out_top x b i k hi]
    by_cases hk : k.val < 3
    · rw [dif_pos hk, top_rot x b _ k hk, rot_apply]
      rfl
    · rw [dif_neg hk, top_trans x b _ k hk, trans_apply]
      rfl
  · rw [dif_neg hi, out_bottom x b i k hi, bottom_apply]

/-- The reference's result is the matrix form of every row. -/
theorem out_eq (x : FVec Ideal S4000000x6 .f32) : Term.out (F := Ideal) x = Cert.Rodrigues.matrixOut x := by
  funext j
  obtain ⟨b, i, k, rfl⟩ : ∃ (b : Fin 4000000) (i k : Fin 4), j = ix3 b i k := ⟨j 0, j 1, j 2, eq_ix3 j⟩
  rw [Cert.Rodrigues.matrixOut_ix3]
  exact out_entry x b i k

end Cert.ReferenceIdeal.Read

end
-- ==== Proof.KernelValuePayload.lean ====
/-
  One row of the block, one entry of its sixteen.

  The body of the kernel works on a block of 3200 rows at once: it cuts the block's six columns apart, computes from the
  first three (the rotation vector) the squared angle, the guarded angle, the two coefficients A and B and the nine
  entries of the rotation in closed form, and lays sixteen columns side by side: the nine entries, the translation
  beside each row of three, and the constant last row 0 0 0 1. Every operation acts row by row, so entry q of row p of
  the block the body stores depends on row p of the block it loaded alone, and is entry q of the closed form of that row.
-/
import proofs.«107096_j31421980737562_1_alg».proof.Proof.Spec
import proofs.«107096_j31421980737562_1_alg».proof.Proof.Gen.KernelIdeal.Skeleton
import Idealize.ShloMosaic.Lib.Pipeline.Value
import Idealize.ShloMosaic.Lib.ValueIdx
import Idealize.ShloMosaic.Lib.ValueLayout

noncomputable section

namespace Cert.KernelIdeal.HandValue

open Idealize.ShloMosaic Idealize.ShloMosaic.ValueIdx Cert.KernelIdeal Cert.KernelIdeal.Gen
open Cert.Rodrigues (th2 small theta coefA coefB closedEntry lit)

/-! ## Sixteen columns side by side -/

/-- Sixteen columns of one entry per row laid side by side: entry q of row p is row p of column q. -/
theorem columns_apply (c : Fin 16 → FVec Ideal S3200x1 .f32)
    (h : Shape.Concatenates [S3200x1, S3200x1, S3200x1, S3200x1, S3200x1, S3200x1, S3200x1, S3200x1, S3200x1, S3200x1, S3200x1, S3200x1, S3200x1, S3200x1, S3200x1, S3200x1] S3200x16 1)
    (p : Fin 3200) (q : Fin 16) :
    concatenate S3200x16 1 [⟨S3200x1, c 0⟩, ⟨S3200x1, c 1⟩, ⟨S3200x1, c 2⟩, ⟨S3200x1, c 3⟩, ⟨S3200x1, c 4⟩, ⟨S3200x1, c 5⟩, ⟨S3200x1, c 6⟩, ⟨S3200x1, c 7⟩, ⟨S3200x1, c 8⟩, ⟨S3200x1, c 9⟩, ⟨S3200x1, c 10⟩, ⟨S3200x1, c 11⟩, ⟨S3200x1, c 12⟩, ⟨S3200x1, c 13⟩, ⟨S3200x1, c 14⟩, ⟨S3200x1, c 15⟩] h (ix2 p q)
      = c q (ix2 p 0) :=
  concatenate_ofFn_unit_apply (t := S3200x16) (s₁ := S3200x1) 1 c h rfl rfl (ix2 p q) q rfl (ix2 p 0)
    (fun b hb => by
      match b with
      | ⟨0, _⟩ => rfl
      | ⟨1, _⟩ => exact absurd rfl hb)

/-! ## The six columns of the block -/

section Columns
variable (x0 : Vec Ideal S3200x6 .f32) (p : Fin 3200)

/-- Column k of the block, cut out as a column of its own, holds at row p the block's entry (p, k). -/
theorem wx_at : k0_pay2 x0 (ix2 p 0) = x0 (ix2 p 0) := slice2_axis1_apply 0 x0 Facts₀.slices_S3200x6_o0_0_S3200x1 p 0 0 rfl
theorem wy_at : k0_pay3 x0 (ix2 p 0) = x0 (ix2 p 1) := slice2_axis1_apply 1 x0 Facts₀.slices_S3200x6_o0_1_S3200x1 p 0 1 rfl
theorem wz_at : k0_pay4 x0 (ix2 p 0) = x0 (ix2 p 2) := slice2_axis1_apply 2 x0 Facts₀.slices_S3200x6_o0_2_S3200x1 p 0 2 rfl
theorem tx_at : k0_pay5 x0 (ix2 p 0) = x0 (ix2 p 3) := slice2_axis1_apply 3 x0 Facts₀.slices_S3200x6_o0_3_S3200x1 p 0 3 rfl
theorem ty_at : k0_pay6 x0 (ix2 p 0) = x0 (ix2 p 4) := slice2_axis1_apply 4 x0 Facts₀.slices_S3200x6_o0_4_S3200x1 p 0 4 rfl
theorem tz_at : k0_pay7 x0 (ix2 p 0) = x0 (ix2 p 5) := slice2_axis1_apply 5 x0 Facts₀.slices_S3200x6_o0_5_S3200x1 p 0 5 rfl

/-! ## The angle and the coefficients, row by row -/

/-- The squared angle of row p. -/
abbrev sq : EReal := th2 (x0 (ix2 p 0)) (x0 (ix2 p 1)) (x0 (ix2 p 2))

/-- The sum of the three squares, at row p. -/
theorem th2_at : k0_pay8 x0 (ix2 p 0) = sq x0 p := by
  show k0_pay2 x0 (ix2 p 0) * k0_pay2 x0 (ix2 p 0) + k0_pay3 x0 (ix2 p 0) * k0_pay3 x0 (ix2 p 0)
    + k0_pay4 x0 (ix2 p 0) * k0_pay4 x0 (ix2 p 0) = _
  rw [wx_at, wy_at, wz_at]; rfl

/-- The threshold bit, at row p. -/
theorem small_at : k0_pay9 x0 (ix2 p 0) = small (sq x0 p) := by
  show Ideal.cmp .olt (k0_pay8 x0 (ix2 p 0)) (lit 0x322BCC77#32) = _
  rw [th2_at]; rfl

/-- The guarded angle, at row p. -/
theorem theta_at : k0_pay10 x0 (ix2 p 0) = theta (sq x0 p) := by
  show Ideal.sqrt (Scalar.select (k0_pay9 x0 (ix2 p 0)) (lit 0x3F800000#32) (k0_pay8 x0 (ix2 p 0))) = _
  rw [small_at, th2_at]; rfl

/-- The coefficient A, at row p. -/
theorem coefA_at : k0_pay11 x0 (ix2 p 0) = coefA (sq x0 p) := by
  show Scalar.select (k0_pay9 x0 (ix2 p 0)) (lit 0x3F800000#32 - Ideal.div (k0_pay8 x0 (ix2 p 0)) (lit 0x40C00000#32))
    (Ideal.div (Ideal.sin (k0_pay10 x0 (ix2 p 0))) (k0_pay10 x0 (ix2 p 0))) = _
  rw [small_at, th2_at, theta_at]; rfl

/-- The coefficient B, at row p. -/
theorem coefB_at : k0_pay12 x0 (ix2 p 0) = coefB (sq x0 p) := by
  show Scalar.select (k0_pay9 x0 (ix2 p 0)) (lit 0x3F000000#32 - Ideal.div (k0_pay8 x0 (ix2 p 0)) (lit 0x41C00000#32))
    (Ideal.div (lit 0x3F800000#32 - Ideal.cos (k0_pay10 x0 (ix2 p 0))) (k0_pay8 x0 (ix2 p 0))) = _
  rw [small_at, th2_at, theta_at]; rfl

/-- 1 - B theta^2, at row p. -/
theorem diag_at : k0_pay13 x0 (ix2 p 0) = lit 0x3F800000#32 - coefB (sq x0 p) * sq x0 p := by
  show lit 0x3F800000#32 - k0_pay12 x0 (ix2 p 0) * k0_pay8 x0 (ix2 p 0) = _
  rw [coefB_at, th2_at]

end Columns

/-! ## The nine entries of the rotation, row by row -/

section Entries
variable (x0 : Vec Ideal S3200x6 .f32) (p : Fin 3200)

/-- The three diagonal entries: (1 - B theta^2) + B w_i w_i. -/
theorem r00_at : k0_pay14 x0 (ix2 p 0)
    = (lit 0x3F800000#32 - coefB (sq x0 p) * sq x0 p) + coefB (sq x0 p) * x0 (ix2 p 0) * x0 (ix2 p 0) := by
  show k0_pay13 x0 (ix2 p 0) + k0_pay12 x0 (ix2 p 0) * k0_pay2 x0 (ix2 p 0) * k0_pay2 x0 (ix2 p 0) = _
  rw [diag_at, coefB_at, wx_at]
theorem r11_at : k0_pay15 x0 (ix2 p 0)
    = (lit 0x3F800000#32 - coefB (sq x0 p) * sq x0 p) + coefB (sq x0 p) * x0 (ix2 p 1) * x0 (ix2 p 1) := by
  show k0_pay13 x0 (ix2 p 0) + k0_pay12 x0 (ix2 p 0) * k0_pay3 x0 (ix2 p 0) * k0_pay3 x0 (ix2 p 0) = _
  rw [diag_at, coefB_at, wy_at]
theorem r22_at : k0_pay16 x0 (ix2 p 0)
    = (lit 0x3F800000#32 - coefB (sq x0 p) * sq x0 p) + coefB (sq x0 p) * x0 (ix2 p 2) * x0 (ix2 p 2) := by
  show k0_pay13 x0 (ix2 p 0) + k0_pay12 x0 (ix2 p 0) * k0_pay4 x0 (ix2 p 0) * k0_pay4 x0 (ix2 p 0) = _
  rw [diag_at, coefB_at, wz_at]

/-- The three products of two different coordinates of the rotation vector. -/
theorem xy_at : k0_pay17 x0 (ix2 p 0) = x0 (ix2 p 0) * x0 (ix2 p 1) := by
  show k0_pay2 x0 (ix2 p 0) * k0_pay3 x0 (ix2 p 0) = _
  rw [wx_at, wy_at]
theorem yz_at : k0_pay18 x0 (ix2 p 0) = x0 (ix2 p 1) * x0 (ix2 p 2) := by
  show k0_pay3 x0 (ix2 p 0) * k0_pay4 x0 (ix2 p 0) = _
  rw [wy_at, wz_at]
theorem zx_at : k0_pay19 x0 (ix2 p 0) = x0 (ix2 p 2) * x0 (ix2 p 0) := by
  show k0_pay4 x0 (ix2 p 0) * k0_pay2 x0 (ix2 p 0) = _
  rw [wz_at, wx_at]
/-- B (wx wy). -/
theorem bxy_at : k0_pay20 x0 (ix2 p 0) = coefB (sq x0 p) * (x0 (ix2 p 0) * x0 (ix2 p 1)) := by
  show k0_pay12 x0 (ix2 p 0) * k0_pay17 x0 (ix2 p 0) = _
  rw [coefB_at, xy_at]

end Entries

/-! ## The block the body stores, one entry at a time -/

/-- The sixteen columns the body lays side by side, in the row-major order of the 4x4 matrix: the six off-diagonal
    entries are B w_i w_j minus or plus A w_k, formed here from the products above. -/
def cols (x0 : Vec Ideal S3200x6 .f32) : Fin 16 → FVec Ideal S3200x1 .f32 :=
  ![k0_pay14 x0,
    subf (k0_pay20 x0) (mulf (k0_pay11 x0) (k0_pay4 x0)),
    addf (mulf (k0_pay12 x0) (k0_pay19 x0)) (mulf (k0_pay11 x0) (k0_pay3 x0)),
    k0_pay5 x0,
    addf (mulf (k0_pay12 x0) (k0_pay17 x0)) (mulf (k0_pay11 x0) (k0_pay4 x0)),
    k0_pay15 x0,
    subf (mulf (k0_pay12 x0) (k0_pay18 x0)) (mulf (k0_pay11 x0) (k0_pay2 x0)),
    k0_pay6 x0,
    subf (mulf (k0_pay12 x0) (k0_pay19 x0)) (mulf (k0_pay11 x0) (k0_pay3 x0)),
    addf (mulf (k0_pay12 x0) (k0_pay18 x0)) (mulf (k0_pay11 x0) (k0_pay2 x0)),
    k0_pay16 x0,
    k0_pay7 x0,
    broadcast S3200x1 (lit 0x00000000#32),
    broadcast S3200x1 (lit 0x00000000#32),
    broadcast S3200x1 (lit 0x00000000#32),
    broadcast S3200x1 (lit 0x3F800000#32)]

/-- Column q at row p is entry q of the closed form of row p of the loaded block. -/
theorem cols_at (x0 : Vec Ideal S3200x6 .f32) (p : Fin 3200) (q : Fin 16) :
    cols x0 q (ix2 p 0) = closedEntry (fun k => x0 (ix2 p k)) q := by
  fin_cases q
  · show k0_pay14 x0 (ix2 p 0) = _
    rw [r00_at]; rfl
  · show k0_pay20 x0 (ix2 p 0) - k0_pay11 x0 (ix2 p 0) * k0_pay4 x0 (ix2 p 0) = _
    rw [bxy_at, coefA_at, wz_at]; rfl
  · show k0_pay12 x0 (ix2 p 0) * k0_pay19 x0 (ix2 p 0) + k0_pay11 x0 (ix2 p 0) * k0_pay3 x0 (ix2 p 0) = _
    rw [coefB_at, zx_at, coefA_at, wy_at]; rfl
  · show k0_pay5 x0 (ix2 p 0) = _
    rw [tx_at]; rfl
  · show k0_pay12 x0 (ix2 p 0) * k0_pay17 x0 (ix2 p 0) + k0_pay11 x0 (ix2 p 0) * k0_pay4 x0 (ix2 p 0) = _
    rw [coefB_at, xy_at, coefA_at, wz_at]; rfl
  · show k0_pay15 x0 (ix2 p 0) = _
    rw [r11_at]; rfl
  · show k0_pay12 x0 (ix2 p 0) * k0_pay18 x0 (ix2 p 0) - k0_pay11 x0 (ix2 p 0) * k0_pay2 x0 (ix2 p 0) = _
    rw [coefB_at, yz_at, coefA_at, wx_at]; rfl
  · show k0_pay6 x0 (ix2 p 0) = _
    rw [ty_at]; rfl
  · show k0_pay12 x0 (ix2 p 0) * k0_pay19 x0 (ix2 p 0) - k0_pay11 x0 (ix2 p 0) * k0_pay3 x0 (ix2 p 0) = _
    rw [coefB_at, zx_at, coefA_at, wy_at]; rfl
  · show k0_pay12 x0 (ix2 p 0) * k0_pay18 x0 (ix2 p 0) + k0_pay11 x0 (ix2 p 0) * k0_pay2 x0 (ix2 p 0) = _
    rw [coefB_at, yz_at, coefA_at, wx_at]; rfl
  · show k0_pay16 x0 (ix2 p 0) = _
    rw [r22_at]; rfl
  · show k0_pay7 x0 (ix2 p 0) = _
    rw [tz_at]; rfl
  · rfl
  · rfl
  · rfl
  · rfl

/-- THE BODY'S BLOCK AT AN ENTRY: entry q of row p of the block the body stores is entry q of the closed form of row p
    of the block it loaded. -/
theorem payload_at (x0 : Vec Ideal S3200x6 .f32) (p : Fin 3200) (q : Fin 16) :
    k0_pay1 (k0_pay2 x0) (k0_pay3 x0) (k0_pay4 x0) (k0_pay5 x0) (k0_pay6 x0) (k0_pay7 x0) (k0_pay11 x0) (k0_pay12 x0)
        (k0_pay14 x0) (k0_pay15 x0) (k0_pay16 x0) (k0_pay17 x0) (k0_pay18 x0) (k0_pay19 x0) (k0_pay20 x0) (ix2 p q)
      = closedEntry (fun k => x0 (ix2 p k)) q :=
  (columns_apply (cols x0) Facts₀.concatenates_S3200x1_S3200x1_S3200x1_S3200x1_S3200x1_S3200x1_S3200x1_S3200x1_S3200x1_S3200x1_S3200x1_S3200x1_S3200x1_S3200x1_S3200x1_S3200x1_S3200x16_d1 p q).trans (cols_at x0 p q)

end Cert.KernelIdeal.HandValue

end
-- ==== Proof.KernelValue.lean ====
/-
  From the blocks to the whole array, and through the reshape that follows the kernel.

  The grid has 1250 points; point t loads rows 3200 t ... 3200 t + 3199 of the input and writes the same rows of a
  4,000,000 x 16 array. Row by row the body computes the closed form, so what point t writes is block t of ONE
  function of the input: entry (b, q) is entry q of the closed form of row b. The blocks tile the array (row b lies in
  block b / 3200), so after the last point the array is that function. The program then regroups each row of sixteen
  as a 4 x 4 matrix in row-major order, which puts entry 4 i + j of row b at (b, i, j): the closed-form result.
-/
import proofs.«107096_j31421980737562_1_alg».proof.Proof.Spec
import proofs.«107096_j31421980737562_1_alg».proof.Proof.KernelValuePayload
import proofs.«107096_j31421980737562_1_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

namespace Cert.KernelIdeal.HandValue

open Idealize.ShloMosaic Idealize.ShloMosaic.TcCoe Idealize.SL.Sem Cert.KernelIdeal Cert.KernelIdeal.Gen
open Idealize.ShloMosaic.Pipeline (Dat)
open Idealize.ShloMosaic.ValueIdx
open Cert.Rodrigues (closedEntry rowAt flat closedOut)

variable (m : (ℓ : Loc nD τ sig) → Buf (Elt Ideal) ℓ) (ρ : Dev nD → PrngReg)

/-! ## The array of sixteen entries per row -/

/-- The 4,000,000 x 16 array whose entry (b, q) is entry q of the closed form of row b of the input. -/
abbrev rowsOut (x : S4000000x6.Idx → EReal) : S4000000x16.Idx → EReal :=
  fun i => closedEntry (rowAt x ⟨(i 0).val, (i 0).isLt⟩) ⟨(i 1).val, (i 1).isLt⟩

/-- The block the body stores, read at an entry that sits at (3200 n + p, q) of the whole array, when the block it
    loaded holds rows 3200 n ... of the input: the whole array's entry there. -/
theorem block_at (x : S4000000x6.Idx → EReal) (x0 : Vec Ideal S3200x6 .f32) (n : Nat)
    (hx : ∀ (p : Fin 3200) (k : Fin 6) (b : Fin 4000000), b.val = 3200 * n + p.val → x0 (ix2 p k) = x (ix2 b k))
    (j : S3200x16.Idx) (i : S4000000x16.Idx) (hi0 : (i 0).val = 3200 * n + (j 0).val) (hi1 : (i 1).val = (j 1).val) :
    k0_pay1 (k0_pay2 x0) (k0_pay3 x0) (k0_pay4 x0) (k0_pay5 x0) (k0_pay6 x0) (k0_pay7 x0) (k0_pay11 x0) (k0_pay12 x0)
        (k0_pay14 x0) (k0_pay15 x0) (k0_pay16 x0) (k0_pay17 x0) (k0_pay18 x0) (k0_pay19 x0) (k0_pay20 x0) j
      = rowsOut x i := by
  obtain ⟨p, q, rfl⟩ : ∃ (p : Fin 3200) (q : Fin 16), j = ix2 p q := ⟨j 0, j 1, eq_ix2 j⟩
  rw [payload_at]
  have hq : q = ⟨(i 1).val, (i 1).isLt⟩ := Fin.ext hi1.symm
  have hr : (fun k => x0 (ix2 p k)) = rowAt x ⟨(i 0).val, (i 0).isLt⟩ := funext fun k => hx p k _ hi0
  rw [hr, hq]

/-! ## The two windows move together -/

theorem hz : (![0, 0] : Fin 2 → Nat) = fun _ => 0 := funext fun a => by fin_cases a <;> rfl

/-- At point t both windows are at block t of the rows and block 0 of the columns. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The input block at point t is rows 3200 t ... 3200 t + 3199 of the input. -/
theorem inBlock_at (c : Dev nD) (t : Fin cfg0.N) (p : Fin 3200) (k : Fin 6) (b : Fin 4000000)
    (hb : b.val = 3200 * t.val + p.val) :
    (iblk m c 0 t : Vec Ideal S3200x6 .f32) (ix2 p k)
      = (m ((c : Thread nD τ).loc main_arg0) : S4000000x6.Idx → EReal) (ix2 b k) := by
  obtain ⟨e0, e1, -, -⟩ := idx_facts t
  unfold iblk
  rw [View.read_apply]
  show V m c main_arg0 _ = m ((c : Thread nD τ).loc main_arg0) _
  rw [V_main_arg0]
  congr 1
  funext a
  apply Fin.ext
  match a with
  | ⟨0, _⟩ => show win0_0.index t (0 : Fin 2) * 3200 + 1 * p.val = b.val; rw [e0, hb]; omega
  | ⟨1, _⟩ => show win0_0.index t (1 : Fin 2) * 6 + 1 * k.val = k.val; rw [e1]; omega

/-! ## What a point writes back, and the array after the last point -/

/-- WHAT POINT t WRITES BACK is block t of the array of closed forms of the input's rows. -/
theorem flushed_eq (c : Dev nD) (t : Fin cfg0.N) :
    (dats m 0 c).flushed 1 t
      = ((cfg0.win 1).blk t).view.read (Elt Ideal) (rowsOut (m ((c : Thread nD τ).loc main_arg0))) := by
  show (cfg0.win 1).cut (grid0.coords t) ((dats m 0 c).after 1 t) = _
  rw [after0_1]
  unfold out0_1
  rw [View.canon_unit_zero hz]
  simp only [View.ld_unit_zero (S := S3200x6) hz]
  obtain ⟨-, -, e2, e3⟩ := idx_facts t
  funext j
  refine block_at (m ((c : Thread nD τ).loc main_arg0)) (iblk m c 0 t) t.val
    (fun p k b hb => inBlock_at m c t p k b hb) j (((cfg0.win 1).blk t).view.emb j) ?_ ?_
  · show win0_1.index t (0 : Fin 2) * 3200 + 1 * (j 0).val = 3200 * t.val + (j 0).val
    rw [e2]; omega
  · show win0_1.index t (1 : Fin 2) * 16 + 1 * (j 1).val = (j 1).val
    rw [e3]; omega

/-- An index of the array is in point t's block iff each coordinate is in the block's range on its axis. -/
theorem mem_blk (t : Fin cfg0.N) (i : S4000000x16.Idx) :
    i ∈ ((cfg0.win 1).blk t).view.set ↔ ∀ a : Fin 2, win0_1.index t a * S3200x16.size a ≤ (i a).val
      ∧ (i a).val < win0_1.index t a * S3200x16.size a + S3200x16.size a := by
  show i ∈ ((View.whole main_v0).slice (win0_1.rect t)).set ↔ _
  rw [View.set_slice_whole, Rect.mem_set_unit]
  exact Iff.rfl

/-- The blocks tile the array: row b lies in the block of point b / 3200. -/
theorem covered (i : S4000000x16.Idx) :
    ∃ t : Fin cfg0.N, (cfg0.win 1).flush t = true ∧ i ∈ ((cfg0.win 1).blk t).view.set := by
  have hi0 : (i 0).val < 4000000 := (i 0).isLt
  have hi1 : (i 1).val < 16 := (i 1).isLt
  have hlt : (i 0).val / 3200 < cfg0.N := Nat.lt_of_lt_of_eq (by omega) N_0.symm
  obtain ⟨-, -, e2, e3⟩ := idx_facts ⟨(i 0).val / 3200, hlt⟩
  refine ⟨⟨(i 0).val / 3200, hlt⟩, flush0_1 _, ?_⟩
  rw [mem_blk]
  intro a
  match a with
  | ⟨0, _⟩ =>
    show win0_1.index ⟨(i 0).val / 3200, hlt⟩ (0 : Fin 2) * 3200 ≤ (i 0).val
      ∧ (i 0).val < win0_1.index ⟨(i 0).val / 3200, hlt⟩ (0 : Fin 2) * 3200 + 3200
    rw [e2]; show (i 0).val / 3200 * 3200 ≤ (i 0).val ∧ (i 0).val < (i 0).val / 3200 * 3200 + 3200; omega
  | ⟨1, _⟩ =>
    show win0_1.index ⟨(i 0).val / 3200, hlt⟩ (1 : Fin 2) * 16 ≤ (i 1).val
      ∧ (i 1).val < win0_1.index ⟨(i 0).val / 3200, hlt⟩ (1 : Fin 2) * 16 + 16
    rw [e3]; omega

/-- THE ARRAY after the last point: the closed form of every row of the input. -/
theorem final (c : Dev nD) :
    (dats m 0 c).arrAt 1 cfg0.N = rowsOut (m ((c : Thread nD τ).loc main_arg0)) :=
  (dats m 0 c).arrAt_eq_of_cover 1 (rowsOut (m ((c : Thread nD τ).loc main_arg0))) (fun t _ => flushed_eq m c t) covered

/-! ## The reshape after the kernel -/

/-- Regrouping each row of sixteen as a 4 x 4 matrix in row-major order puts entry 4 r + s of row b at (b, r, s). -/
theorem regroup (x : S4000000x6.Idx → EReal) (h : S4000000x16.ShapeCasts S4000000x4x4) :
    shapeCast S4000000x4x4 (rowsOut x) h = closedOut x := by
  funext i
  obtain ⟨b, r, s, rfl⟩ : ∃ (b : Fin 4000000) (r s : Fin 4), i = ix3 b r s := ⟨i 0, i 1, i 2, eq_ix3 i⟩
  rw [Cert.Rodrigues.closedOut_ix3]
  refine (shapeCast_apply (rowsOut x) h (ix3 b r s) (ix2 b (flat r s)) ?_).trans ?_
  · rw [Shape.rowMajor_val_two, Shape.rowMajor_val_three]
    show b.val * 16 + (4 * r.val + s.val) = (b.val * 4 + r.val) * 4 + s.val
    omega
  · rfl

/-- THE RESULT: the array the kernel leaves, regrouped, is the closed-form result of the input. -/
theorem tail_eq (c : Dev nD) :
    Pipeline.afterTail₀ cfgs (dats m) 0 (V0 m) [hostOps1] c main_v1
      = closedOut (m ((c : Thread nD τ).loc main_arg0)) := by
  unfold Pipeline.afterTail₀
  show StableHlo.after hostOps1 _ (Proc.devRef .tc main_v1) = _
  after_results
  have e : Pipeline.withArrays (cfgs 0).spec c (V0 m c) (fun w => (dats m 0 c).arrAt w (cfgs 0).N)
      (Proc.devRef .tc main_v0) = rowsOut (m ((c : Thread nD τ).loc main_arg0)) :=
    (Pipeline.withArrays_arr spec0 launch0.win.arr_inj c _ _ 1).trans (final m c)
  show shapeCast S4000000x4x4 (Pipeline.withArrays (cfgs 0).spec c (V0 m c) (fun w => (dats m 0 c).arrAt w (cfgs 0).N)
      (Proc.devRef .tc main_v0)) Facts₀.shapeCasts_S4000000x16_S4000000x4x4 = _
  rw [e]
  exact regroup _ _

/-! ## The run, read -/

/-- Every run of the program ends with its result at the closed-form function of its argument, the argument unchanged. -/
theorem run : θ_run (defs (F := Ideal)) (onTc (τ := τ) (main (F := Ideal))) ⟨m, fun _ => 0, ρ⟩ (fun r => ∀ c : Dev nD,
      r.2.mem ((c.tc : Thread nD τ).loc main_v1) = Cert.Rodrigues.closedOut (m ((c.tc : Thread nD τ).loc main_arg0))
      ∧ r.2.mem ((c.tc : Thread nD τ).loc main_arg0) = m ((c.tc : Thread nD τ).loc main_arg0)) :=
  (θ_run defs _ _).mono (fun r h c =>
      ⟨((h c).2 main_v1 (Pipeline.mem_restRefs_of main_v1 rfl (fun w => by fin_cases w <;> decide))).trans (tail_eq m c),
        ((h c).1 0).trans (((dats m 0 c).arrAt_in 0 rfl _).trans ((A_eq m c 0).trans (V_main_arg0 m c)))⟩)
    (run_main m ρ)

end Cert.KernelIdeal.HandValue

end
-- ==== Proof.lean ====
/-
  Rodrigues' rotation with a translation, as a 4x4 homogeneous matrix per row: the closed form against
  I + A K + B K K.

  The kernel program writes, for each row (w, t) of the input, the sixteen entries of [ R t ; 0 0 0 1 ] with the nine
  entries of R in closed form; the reference forms the skew-symmetric matrix K of w, its square by a three-term
  contraction, and R = (I + A K) + B (K K). Both compute theta^2 = |w|^2, the same threshold test and the same two
  coefficients A and B by the same operations, so A and B are the same extended reals on both sides; what differs is
  the last step, and there the two agree as polynomials in A, B and w because K K = w w^T - |w|^2 I. That identity
  uses distributivity, which the extended reals have only away from the infinities: the precondition (every entry of
  the input is finite) makes every row real, and then A and B are real as well.

  The parts: the kernel program's run read down to "result = closed form of the input" (from the frame run: the body's
  block at an entry, the blocks tiling the array, the regrouping of sixteen entries as 4x4); the reference's run read
  back as its composed term and that term read at an index as the matrix form; the scalar algebra on a real row;
  finiteness from the precondition. Here they are put together into the five claims.
-/
import proofs.«107096_j31421980737562_1_alg».proof.Defs
import proofs.«107096_j31421980737562_1_alg».proof.Proof.Gen.Kernel
import proofs.«107096_j31421980737562_1_alg».proof.Proof.Gen.Kernel.Frame
import proofs.«107096_j31421980737562_1_alg».proof.Proof.Gen.KernelIdeal
import proofs.«107096_j31421980737562_1_alg».proof.Proof.Gen.KernelIdeal.Frame
import proofs.«107096_j31421980737562_1_alg».proof.Proof.Gen.ReferenceIdeal
import proofs.«107096_j31421980737562_1_alg».proof.Proof.Gen.Pre_finite_inputs
import proofs.«107096_j31421980737562_1_alg».proof.Proof.Spec
import proofs.«107096_j31421980737562_1_alg».proof.Proof.Algebra
import proofs.«107096_j31421980737562_1_alg».proof.Proof.Finite
import proofs.«107096_j31421980737562_1_alg».proof.Proof.RefRunValue
import proofs.«107096_j31421980737562_1_alg».proof.Proof.RefRead
import proofs.«107096_j31421980737562_1_alg».proof.Proof.KernelValue
import Idealize.ShloMosaic.Adequacy
import Idealize.ShloMosaic.Init

noncomputable section

namespace Cert.Proof

open Idealize.ShloMosaic Idealize.SL.Sem Idealize.ShloMosaic.ValueIdx

/-- On an input all of whose entries are real the closed form and the matrix form are one array: entry by entry, on
    the real row the entry belongs to. -/
theorem closed_eq_matrix (x : Cert.Rodrigues.SIn.Idx → EReal) (hx : ∀ i, ∃ r : ℝ, x i = (r : EReal)) :
    Cert.Rodrigues.closedOut x = Cert.Rodrigues.matrixOut x := by
  funext j
  obtain ⟨b, i, k, rfl⟩ : ∃ (b : Fin 4000000) (i k : Fin 4), j = ix3 b i k := ⟨j 0, j 1, j 2, eq_ix3 j⟩
  rw [Cert.Rodrigues.closedOut_ix3, Cert.Rodrigues.matrixOut_ix3]
  choose v hv using fun k : Fin 6 => hx (ix2 b k)
  have hrow : Cert.Rodrigues.rowAt x b = fun k => ((v k : ℝ) : EReal) := funext hv
  rw [hrow]
  exact Cert.Rodrigues.entries_eq v i k

/-- The kernel program runs and leaves its argument as it was: its frame, whole. -/
theorem frame_kernel : Cert.frame_Kernel := fun m ρ _ => Cert.Kernel.Gen.frame m ρ

/-- The same of its idealization. -/
theorem frame_kernelIdeal : Cert.frame_KernelIdeal := fun m ρ _ => Cert.KernelIdeal.Gen.frame m ρ

/-- The reference runs and leaves its argument as it was: its run read back, the result forgotten. -/
theorem frame_referenceIdeal : Cert.frame_ReferenceIdeal := fun m ρ _ =>
  (θ_run Cert.ReferenceIdeal.defs _ _).mono (fun _ h c => (h c).2) (Cert.ReferenceIdeal.HandRun.run (F := Ideal) m ρ)

/-- The idealization rewrote nothing. -/
theorem preserves : Cert.preserves_Kernel_KernelIdeal := trivial

/-- From memories agreeing on the input both programs end at the closed form of that input: the kernel program by its
    run read down to the closed form, the reference by its composed term, which is the matrix form, which is the closed
    form on an input of real entries. -/
theorem algebraic : Cert.algebraic_KernelIdeal_ReferenceIdeal := by
  intro m ρ m' ρ' hpre hagree
  refine ⟨fun c => Cert.Rodrigues.closedOut (m ((c.tc : Thread Cert.KernelIdeal.nD Cert.KernelIdeal.τ).loc Cert.KernelIdeal.main_arg0)),
    Cert.KernelIdeal.HandValue.run m ρ, ?_⟩
  refine (θ_run Cert.ReferenceIdeal.defs _ _).mono (fun _ h c => ⟨(h c).1.trans ?_, (h c).2⟩)
    (Cert.ReferenceIdeal.HandRun.run (F := Ideal) m' ρ')
  rw [Cert.ReferenceIdeal.Read.out_eq, hagree c]
  exact (closed_eq_matrix _ fun i => Cert.Pre_finite_inputs.Finite.real_of_pre _ (hpre c) i).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
